-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16 : Shape := ⟨1, ![16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16 : S_.BroadcastsInDim S16 (![] : Fin 0 → Fin S16.rank)
  reducesTo_S16_S_d0 : S16.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096x4096 32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S4096x4096 32 := broadcastInDim S4096x4096 ![] bcast_S_S4096x4096 main_c_8
  let main_v25 : IVec S4096x4096 1 := cmpi .sge main_arg1 main_v24
  let main_c_9 : IVec S_ 32 := constantI S_ 32 16#32
  let main_v26 : IVec S4096x4096 32 := broadcastInDim S4096x4096 ![] bcast_S_S4096x4096 main_c_9
  let main_v27 : IVec S4096x4096 1 := cmpi .slt main_arg1 main_v26
  let main_v28 : IVec S4096x4096 1 := andi main_v25 main_v27
  let main_c_10 : IVec S_ 1 := constantI S_ 1 1#1
  let main_v29 : IVec S_ 1 := (fun x v => Host.reduce IntOp.andi x v reducesTo_S4096x4096_S_d0_1 h_S_) main_v28 main_c_10
  let main_v30 : IVec S_ 1 := andi main_v23 main_v29
  main_v30

def fn {F : FTy → Type} [FloatOps F] (main_arg0 : FVec F S4x2048x4096 .f32) (main_arg1 : IVec S4096x4096 32) (main_arg2 : FVec F S16 .f32) (main_arg3 : FVec F S4096x4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_arg5 main_v13 main_v16
-- ==== Kernel.lean ====
abbrev S4x2048x4096 : Shape := ⟨3, ![4, 2048, 4096]⟩
abbrev S4096x4096 : Shape := ⟨2, ![4096, 4096]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S1024x256 : Shape := ⟨2, ![1024, 256]⟩
abbrev S256x4096 : Shape := ⟨2, ![256, 4096]⟩
abbrev S1024x1 : Shape := ⟨2, ![1024, 1]⟩
abbrev S1024x4096 : Shape := ⟨2, ![1024, 4096]⟩
abbrev S1x1 : Shape := ⟨2, ![1, 1]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 25
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S16, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096x4096, .bf16⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1, .f32⟩
  | .hbm, ⟨11, _⟩ => ⟨S1x16, .f32⟩
  | .hbm, ⟨12, _⟩ => ⟨S4096x4096, .f32⟩
  | .hbm, ⟨13, _⟩ => ⟨S4096x4096, .bf16⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S8192x4096, .f32⟩
  | .hbm, ⟨18, _⟩ => ⟨S8192x4096, .bf16⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S1x4096, .f32⟩
  | .hbm, ⟨23, _⟩ => ⟨S8192x4096, .f32⟩
  | .hbm, ⟨24, _⟩ => ⟨S4x2048x4096, .f32⟩
  | .local _ .vmem, ⟨0, _⟩ => ⟨S1024x256, .i32⟩
  | .local _ .vmem, ⟨1, _⟩ => ⟨S1024x256, .i32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x1, .f32⟩
  | .local _ .vmem, ⟨7, _⟩ => ⟨S1024x1, .f32⟩
  | .local _ .vmem, ⟨8, _⟩ => ⟨S1x16, .f32⟩
  | .local _ .vmem, ⟨9, _⟩ => ⟨S1024x4096, .f32⟩
  | .local _ .vmem, ⟨10, _⟩ => ⟨S1024x4096, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S2048x1024, .f32⟩
  | .local _ .vmem, ⟨22, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bitsLt_bf16_f32 : FTy.bits .bf16 < FTy.bits .f32
  shapeCasts_S4096_S4096x1 : S4096.ShapeCasts S4096x1
  shapeCasts_S16_S1x16 : S16.ShapeCasts S1x16
  inb_S1024x4096_S1024x4096_0_0 : ∀ a, (![0, 0] : Fin 2 → Nat) a + S1024x4096.size a ≤ S1024x4096.size a
  h_S1024x4096 : 0 < S1024x4096.numel
  inb_S1024x256_S1024x256_0_0 : ∀ a, (![0, 0] : Fin 2 → Nat) a + S1024x256.size a ≤ S1024x256.size a
  h_S1024x256 : 0 < S1024x256.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  slices_S1x16_o0_0_S1x1 : S1x16.Slices ![0, 0] S1x1
  inpos_S1x1_p0_0 : ∀ a, (![0, 0] : Fin 2 → Nat) a < S1x1.size a
  slices_S1x16_o0_1_S1x1 : S1x16.Slices ![0, 1] S1x1
  slices_S1x16_o0_2_S1x1 : S1x16.Slices ![0, 2] S1x1
  slices_S1x16_o0_3_S1x1 : S1x16.Slices ![0, 3] S1x1
  slices_S1x16_o0_4_S1x1 : S1x16.Slices ![0, 4] S1x1
  slices_S1x16_o0_5_S1x1 : S1x16.Slices ![0, 5] S1x1
  slices_S1x16_o0_6_S1x1 : S1x16.Slices ![0, 6] S1x1
  slices_S1x16_o0_7_S1x1 : S1x16.Slices ![0, 7] S1x1
  slices_S1x16_o0_8_S1x1 : S1x16.Slices ![0, 8] S1x1
  slices_S1x16_o0_9_S1x1 : S1x16.Slices ![0, 9] S1x1
  slices_S1x16_o0_10_S1x1 : S1x16.Slices ![0, 10] S1x1
  slices_S1x16_o0_11_S1x1 : S1x16.Slices ![0, 11] S1x1
  slices_S1x16_o0_12_S1x1 : S1x16.Slices ![0, 12] S1x1
  slices_S1x16_o0_13_S1x1 : S1x16.Slices ![0, 13] S1x1
  slices_S1x16_o0_14_S1x1 : S1x16.Slices ![0, 14] S1x1
  slices_S1x16_o0_15_S1x1 : S1x16.Slices ![0, 15] S1x1
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x256_S256x4096_S1024x4096_1_0_0_1_n_n_wf : DotDims.WF S1024x256 S256x4096 S1024x4096 [1] [0] [0] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .i32 = 32 ∨ (Rect.block (s := S4096x4096) S1024x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S4096x4096.size a
  hwx0_5 : ∀ i : grid0.Coords, EltTy.bits .f32 = 32 ∨ (Rect.block (s := S4096x4096) S1024x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x4096.size a
  hwx1_1 : ∀ i : grid1.Coords, EltTy.bits .bf16 = 32 ∨ (Rect.block (s := S8192x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S8192x4096.size a
  hwx1_5 : ∀ i : grid1.Coords, EltTy.bits .f32 = 32 ∨ (Rect.block (s := S8192x4096) S2048x1024.size (cc1_transform_5 i) (hinb1_5 i)).WholeWords (EltTy.packing .f32)

variable [Facts₀]

def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16 : Shape := ⟨1, ![16]⟩
abbrev S4096 : Shape := ⟨1, ![4096]⟩
abbrev S_ : Shape := ⟨0, ![]⟩
abbrev S4096x4096x1 : Shape := ⟨3, ![4096, 4096, 1]⟩
abbrev S4096x1 : Shape := ⟨2, ![4096, 1]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S16, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S_, .i32⟩
  | .hbm, ⟨7, _⟩ => ⟨S4096x4096, .i32⟩
  | .hbm, ⟨8, _⟩ => ⟨S4096x4096, .i1⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S4096x4096x1, .i32⟩
  | .hbm, ⟨14, _⟩ => ⟨S4096x4096, .f32⟩
  | .hbm, ⟨15, _⟩ => ⟨S4096x4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S4096x4096x1_S4096x4096_n_0_n_n_0_2_1_wf : GatherDims.WF S16 S4096x4096x1 S4096x4096 [] [0] [] [0] [] 2 ![1]
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What both programs compute, over the reals.  A 4-bit code `q o i` picks one of sixteen centroids; the
  dequantised row is rotated by `P` and rescaled by its row norm,
      W o n = (∑ i < 4096, c (q o i) · P i n) · r o,
  and the layer is the affine map
      out b s o = (∑ i < 4096, x b s i · W o i) + β o.
  Arrays of extended reals whose entries are all real are read through `EReal.toReal`; indices are natural
  numbers reduced modulo the extent, so that every function here is total and no index arithmetic on
  `Fin` is ever needed.
-/
import Idealize.ShloMosaic.PureOps.Ideal
import Idealize.ShloMosaic.Lib.ValueIdx

noncomputable section

open Idealize.ShloMosaic Idealize.ShloMosaic.ValueIdx

namespace Cert.Bridge

abbrev SX : Shape := ⟨3, ![4, 2048, 4096]⟩
abbrev SQ : Shape := ⟨2, ![4096, 4096]⟩
abbrev SC : Shape := ⟨1, ![16]⟩
abbrev SV : Shape := ⟨1, ![4096]⟩

/-- The dequantised, rotated and rescaled weight, entry `(o, n)`. -/
def Wn (cn : ℕ → ℝ) (qn : ℕ → ℕ → ℕ) (Pn : ℕ → ℕ → ℝ) (rn : ℕ → ℝ) (o n : ℕ) : ℝ :=
  (∑ i ∈ Finset.range 4096, cn (qn o i) * Pn i n) * rn o

/-- One output entry of the affine layer with weight `W` and offset `bn`, row `r` of the flattened input. -/
def Yn (xn : ℕ → ℕ → ℝ) (W : ℕ → ℕ → ℝ) (bn : ℕ → ℝ) (r o : ℕ) : ℝ :=
  (∑ i ∈ Finset.range 4096, xn r i * W o i) + bn o

/-- An index of the input tensor from natural-number coordinates (each reduced modulo its extent). -/
def nx3 (b s i : ℕ) : SX.Idx :=
  ix3 ⟨b % 4, Nat.mod_lt _ (by norm_num)⟩ ⟨s % 2048, Nat.mod_lt _ (by norm_num)⟩ ⟨i % 4096, Nat.mod_lt _ (by norm_num)⟩
/-- An index of a 4096 × 4096 array from natural-number coordinates. -/
def nq (o i : ℕ) : SQ.Idx := ix2 ⟨o % 4096, Nat.mod_lt _ (by norm_num)⟩ ⟨i % 4096, Nat.mod_lt _ (by norm_num)⟩
/-- An index of the centroid table. -/
def nc (k : ℕ) : SC.Idx := ix1 ⟨k % 16, Nat.mod_lt _ (by norm_num)⟩
/-- An index of a length-4096 vector. -/
def nv (o : ℕ) : SV.Idx := ix1 ⟨o % 4096, Nat.mod_lt _ (by norm_num)⟩

/-- The input tensor read as reals at natural-number coordinates. -/
def x3n (x : FVec Ideal SX .f32) (b s i : ℕ) : ℝ := (x (nx3 b s i)).toReal
/-- The same tensor with its two leading axes flattened: row `r` is `(r / 2048, r % 2048)`. -/
def x2n (x : FVec Ideal SX .f32) (r i : ℕ) : ℝ := x3n x (r / 2048) (r % 2048) i
/-- The code array read as natural numbers. -/
def qn (idx : IVec SQ 32) (o i : ℕ) : ℕ := (idx (nq o i)).toNat
/-- The centroid table read as reals. -/
def cn (cen : FVec Ideal SC .f32) (k : ℕ) : ℝ := (cen (nc k)).toReal
/-- The rotation read as reals. -/
def Pn (Pi : FVec Ideal SQ .f32) (i n : ℕ) : ℝ := (Pi (nq i n)).toReal
/-- A length-4096 vector read as reals. -/
def vn (v : FVec Ideal SV .f32) (o : ℕ) : ℝ := (v (nv o)).toReal

/-- The natural-number index of an index's own coordinates is that index. -/
theorem nq_self (j : SQ.Idx) : nq (j 0).val (j 1).val = j := by
  funext a
  match a with
  | ⟨0, _⟩ => exact Fin.ext (Nat.mod_eq_of_lt (j 0).isLt)
  | ⟨1, _⟩ => exact Fin.ext (Nat.mod_eq_of_lt (j 1).isLt)
theorem nx3_self (j : SX.Idx) : nx3 (j 0).val (j 1).val (j 2).val = j := by
  funext a
  match a with
  | ⟨0, _⟩ => exact Fin.ext (Nat.mod_eq_of_lt (j 0).isLt)
  | ⟨1, _⟩ => exact Fin.ext (Nat.mod_eq_of_lt (j 1).isLt)
  | ⟨2, _⟩ => exact Fin.ext (Nat.mod_eq_of_lt (j 2).isLt)

/-- The weight of the given arguments. -/
def Wspec (idx : IVec SQ 32) (cen : FVec Ideal SC .f32) (Pi : FVec Ideal SQ .f32) (rn : FVec Ideal SV .f32) : ℕ → ℕ → ℝ :=
  Wn (cn cen) (qn idx) (Pn Pi) (vn rn)

/-- THE RESULT both programs end with, as an array of extended reals. -/
def Out (x : FVec Ideal SX .f32) (idx : IVec SQ 32) (cen : FVec Ideal SC .f32) (Pi : FVec Ideal SQ .f32)
    (rn bias : FVec Ideal SV .f32) : FVec Ideal SX .f32 := fun j =>
  (((∑ i ∈ Finset.range 4096, x3n x (j 0).val (j 1).val i * Wspec idx cen Pi rn (j 2).val i) + vn bias (j 2).val : ℝ) : EReal)

/-- What the argument arrays are assumed to be: every float entry a real number, every code below sixteen. -/
structure Dom (x : FVec Ideal SX .f32) (idx : IVec SQ 32) (cen : FVec Ideal SC .f32) (Pi : FVec Ideal SQ .f32)
    (rn bias : FVec Ideal SV .f32) : Prop where
  x_real : ∀ i, ((x i).toReal : EReal) = x i
  cen_real : ∀ i, ((cen i).toReal : EReal) = cen i
  Pi_real : ∀ i, ((Pi i).toReal : EReal) = Pi i
  rn_real : ∀ i, ((rn i).toReal : EReal) = rn i
  bias_real : ∀ i, ((bias i).toReal : EReal) = bias i
  idx_lt : ∀ i, (idx i).toNat < 16

/-- A finite sum of real numbers, read in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over `Fin n` of a function of the value is the sum over `range n`. -/
theorem sum_fin_range {M : Type} [AddCommMonoid M] (n : ℕ) (g : ℕ → M) : (∑ k : Fin n, g k.val) = ∑ k ∈ Finset.range n, g k :=
  (Finset.sum_range g).symm

end Cert.Bridge

end
-- ==== Proof.KHost.lean ====
/-
  The host operations around the two kernels, read at an index (at the ideal instance a change of float format is the
  identity, so the high part of a split is the array itself and the low part the array minus itself; a reshape
  re-reads the same entries in row-major order).
-/
import proofs.«415316_j46162308497811_3_alg».proof.Proof.Gen.KernelIdeal.Frame
import proofs.«415316_j46162308497811_3_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)
open Cert.KernelIdeal Cert.KernelIdeal.Gen
open Cert.Bridge

namespace Cert.KernelIdeal.KHost

variable (m : (ℓ : Loc nD τ sig) → Buf (Elt Ideal) ℓ) (ρ : Dev nD → PrngReg)

/-- The argument arrays at their literal types. -/
abbrev aX (c : Dev nD) : FVec Ideal SX .f32 := m ((c : Thread nD τ).loc main_arg0)
abbrev aQ (c : Dev nD) : IVec SQ 32 := m ((c : Thread nD τ).loc main_arg1)
abbrev aC (c : Dev nD) : FVec Ideal SC .f32 := m ((c : Thread nD τ).loc main_arg2)
abbrev aP (c : Dev nD) : FVec Ideal SQ .f32 := m ((c : Thread nD τ).loc main_arg3)
abbrev aR (c : Dev nD) : FVec Ideal SV .f32 := m ((c : Thread nD τ).loc main_arg4)
abbrev aB (c : Dev nD) : FVec Ideal SV .f32 := m ((c : Thread nD τ).loc main_arg5)
/-- The first kernel's output array at its literal type. -/
abbrev wArr (c : Dev nD) : FVec Ideal SQ .f32 := (dat0 (F := Ideal) (V1 m ρ) c).arrAt 5 cfg0.N
/-- The second kernel's output array at its literal type. -/
abbrev yArr (c : Dev nD) : FVec Ideal (⟨2, ![8192, 4096]⟩ : Shape) .f32 := (dat1 (F := Ideal) (V3 m ρ) c).arrAt 5 cfg1.N

/-! ## What the first kernel finds -/

theorem V1_arg1 (c : Dev nD) (j : S4096x4096.Idx) :
    (V1 m ρ c main_arg1 j : BitVec 32) = aQ m c (nq (j 0).val (j 1).val) := by
  have e : (V1 m ρ c main_arg1 : S4096x4096.Idx → BitVec 32) = aQ m c := by
    show StableHlo.after hostOps0 _ (Proc.devRef .tc main_arg1) = _
    after_results
  exact (congrFun e j).trans (congrArg (aQ m c) (nq_self j).symm)
theorem V1_v0 (c : Dev nD) (j : S4096x4096.Idx) :
    (V1 m ρ c main_v0 j : EReal) = aP m c (nq (j 0).val (j 1).val) := by
  have e : (V1 m ρ c main_v0 : S4096x4096.Idx → EReal) = truncf .bf16 (aP m c) bitsLt_bf16_f32 := by
    show StableHlo.after hostOps0 _ (Proc.devRef .tc main_v0) = _
    after_results
  exact (congrFun e j).trans (congrArg (aP m c) (nq_self j).symm)
theorem V1_v3 (c : Dev nD) (j : S4096x4096.Idx) :
    (V1 m ρ c main_v3 j : EReal) = aP m c (nq (j 0).val (j 1).val) - aP m c (nq (j 0).val (j 1).val) := by
  have e : (V1 m ρ c main_v3 : S4096x4096.Idx → EReal)
      = truncf .bf16 (subf (aP m c) (extf .f32 (truncf .bf16 (aP m c) bitsLt_bf16_f32) bitsLt_bf16_f32)) bitsLt_bf16_f32 := by
    show StableHlo.after hostOps0 _ (Proc.devRef .tc main_v3) = _
    after_results
  rw [nq_self j]
  exact congrFun e j
theorem V1_v4 (c : Dev nD) (j : S4096x1.Idx) :
    (V1 m ρ c main_v4 j : EReal) = aR m c (nv (j 0).val) := by
  have e : (V1 m ρ c main_v4 : S4096x1.Idx → EReal) = shapeCast S4096x1 (aR m c) shapeCasts_S4096_S4096x1 := by
    show StableHlo.after hostOps0 _ (Proc.devRef .tc main_v4) = _
    after_results; rfl
  rw [e]
  refine shapeCast_apply _ _ j _ ?_
  rw [Shape.rowMajor_val_one, Shape.rowMajor_val_two]
  have h0 : (j 0).val < 4096 := (j 0).isLt
  have h1 : (j 1).val < 1 := (j 1).isLt
  show (j 0).val % 4096 = (j 0).val * 1 + (j 1).val
  omega
theorem V1_v5 (c : Dev nD) (j : S1x16.Idx) :
    (V1 m ρ c main_v5 j : EReal) = aC m c (nc (j 1).val) := by
  have e : (V1 m ρ c main_v5 : S1x16.Idx → EReal) = shapeCast S1x16 (aC m c) shapeCasts_S16_S1x16 := by
    show StableHlo.after hostOps0 _ (Proc.devRef .tc main_v5) = _
    after_results; rfl
  rw [e]
  refine shapeCast_apply _ _ j _ ?_
  rw [Shape.rowMajor_val_one, Shape.rowMajor_val_two]
  have h0 : (j 0).val < 1 := (j 0).isLt
  have h1 : (j 1).val < 16 := (j 1).isLt
  show (j 1).val % 16 = (j 0).val * 16 + (j 1).val
  omega

/-! ## What the later stretches of host operations read

Each stretch reads, from the boundary before it, buffers that none of its own operations writes: a kernel's output
array, which holds what that kernel's pipeline leaves, or an argument, which still holds what was launched. -/

/-- The first kernel's output buffer when the second stretch begins, at its literal type. -/
private abbrev b6 (c : Dev nD) : FVec Ideal S4096x4096 .f32 := W2 m ρ c (Proc.devRef .tc main_v6)
/-- The input tensor's buffer when the second stretch begins. -/
private abbrev bX (c : Dev nD) : FVec Ideal S4x2048x4096 .f32 := W2 m ρ c (Proc.devRef .tc main_arg0)
/-- The offset vector's buffer when the second stretch begins. -/
private abbrev bB (c : Dev nD) : FVec Ideal S4096 .f32 := W2 m ρ c (Proc.devRef .tc main_arg5)
/-- The second kernel's output buffer when the last stretch begins. -/
private abbrev b17 (c : Dev nD) : FVec Ideal S8192x4096 .f32 := W4 m ρ c (Proc.devRef .tc main_v17)

/-- The first kernel's output buffer holds what the first pipeline leaves. -/
private theorem b6_eq (c : Dev nD) : b6 m ρ c = wArr m ρ c := W2_arr m ρ c 5

/-- The input tensor is still the launch's: neither the first stretch nor the first kernel writes it. -/
private theorem bX_eq (c : Dev nD) : bX m ρ c = aX m c := by
  refine (W2_of_ne m ρ c main_arg0 (by decide)).trans ?_
  show StableHlo.after hostOps0 _ (Proc.devRef .tc main_arg0) = _
  after_results <;> rfl

/-- The offset vector is still the launch's. -/
private theorem bB_eq (c : Dev nD) : bB m ρ c = aB m c := by
  refine (W2_of_ne m ρ c main_arg5 (by decide)).trans ?_
  show StableHlo.after hostOps0 _ (Proc.devRef .tc main_arg5) = _
  after_results <;> rfl

/-- The second kernel's output buffer holds what the second pipeline leaves. -/
private theorem b17_eq (c : Dev nD) : b17 m ρ c = yArr m ρ c := W4_arr m ρ c 5

/-! ## Reshapes read at an index: the two indices have the same row-major position -/

/-- The input tensor with its two leading axes flattened, read at row `r` and column `i`, is the tensor at
    `(r / 2048, r % 2048, i)`. -/
private theorem reshape_X (x : FVec Ideal S4x2048x4096 .f32) (h : S4x2048x4096.ShapeCasts S8192x4096) (j : S8192x4096.Idx) :
    shapeCast S8192x4096 x h j = x (nx3 ((j 0).val / 2048) ((j 0).val % 2048) (j 1).val) := by
  refine shapeCast_apply _ _ j _ ?_
  rw [Shape.rowMajor_val_three, Shape.rowMajor_val_two]
  have h0 : (j 0).val < 8192 := (j 0).isLt
  have h1 : (j 1).val < 4096 := (j 1).isLt
  show ((j 0).val / 2048 % 4 * 2048 + (j 0).val % 2048 % 2048) * 4096 + (j 1).val % 4096 = (j 0).val * 4096 + (j 1).val
  omega

/-- A vector of length 4096 as a single row, read at `(0, i)`, is the vector at `i`. -/
private theorem reshape_B (x : FVec Ideal S4096 .f32) (h : S4096.ShapeCasts S1x4096) (j : S1x4096.Idx) :
    shapeCast S1x4096 x h j = x (nv (j 1).val) := by
  refine shapeCast_apply _ _ j _ ?_
  rw [Shape.rowMajor_val_one, Shape.rowMajor_val_two]
  have h0 : (j 0).val < 1 := (j 0).isLt
  have h1 : (j 1).val < 4096 := (j 1).isLt
  show (j 1).val % 4096 = (j 0).val * 4096 + (j 1).val
  omega

/-- An 8192 × 4096 array with its leading axis split into 4 × 2048, read at `(b, s, i)`, is the array at
    `(b · 2048 + s, i)`. -/
private theorem reshape_Y (y : FVec Ideal S8192x4096 .f32) (h : S8192x4096.ShapeCasts S4x2048x4096) (j : S4x2048x4096.Idx) :
    shapeCast S4x2048x4096 y h j
      = y (ix2 ⟨((j 0).val * 2048 + (j 1).val) % 8192, Nat.mod_lt _ (by norm_num)⟩ ⟨(j 2).val % 4096, Nat.mod_lt _ (by norm_num)⟩) := by
  refine shapeCast_apply _ _ j _ ?_
  rw [Shape.rowMajor_val_two, Shape.rowMajor_val_three]
  have h0 : (j 0).val < 4 := (j 0).isLt
  have h1 : (j 1).val < 2048 := (j 1).isLt
  have h2 : (j 2).val < 4096 := (j 2).isLt
  show ((j 0).val * 2048 + (j 1).val) % 8192 * 4096 + (j 2).val % 4096 = ((j 0).val * 2048 + (j 1).val) * 4096 + (j 2).val
  omega

/-! ## What the second kernel finds -/

theorem V3_v7 (c : Dev nD) (j : S4096x4096.Idx) :
    (V3 m ρ c main_v7 j : EReal) = wArr m ρ c j := by
  have e : (V3 m ρ c main_v7 : S4096x4096.Idx → EReal) = truncf .bf16 (b6 m ρ c) bitsLt_bf16_f32 := by
    show StableHlo.after hostOps1 _ (Proc.devRef .tc main_v7) = _
    after_results <;> rfl
  rw [e, truncf_apply, b6_eq]
theorem V3_v10 (c : Dev nD) (j : S4096x4096.Idx) :
    (V3 m ρ c main_v10 j : EReal) = wArr m ρ c j - wArr m ρ c j := by
  have e : (V3 m ρ c main_v10 : S4096x4096.Idx → EReal)
      = truncf .bf16 (subf (b6 m ρ c) (extf .f32 (truncf .bf16 (b6 m ρ c) bitsLt_bf16_f32) bitsLt_bf16_f32)) bitsLt_bf16_f32 := by
    show StableHlo.after hostOps1 _ (Proc.devRef .tc main_v10) = _
    after_results <;> rfl
  rw [e, truncf_apply, subf_apply, extf_apply, truncf_apply, b6_eq]
theorem V3_v12 (c : Dev nD) (j : S8192x4096.Idx) :
    (V3 m ρ c main_v12 j : EReal) = aX m c (nx3 ((j 0).val / 2048) ((j 0).val % 2048) (j 1).val) := by
  have e : (V3 m ρ c main_v12 : S8192x4096.Idx → EReal)
      = truncf .bf16 (shapeCast S8192x4096 (bX m ρ c) shapeCasts_S4x2048x4096_S8192x4096) bitsLt_bf16_f32 := by
    show StableHlo.after hostOps1 _ (Proc.devRef .tc main_v12) = _
    after_results <;> rfl
  rw [e, truncf_apply, bX_eq, reshape_X]
theorem V3_v15 (c : Dev nD) (j : S8192x4096.Idx) :
    (V3 m ρ c main_v15 j : EReal) = aX m c (nx3 ((j 0).val / 2048) ((j 0).val % 2048) (j 1).val)
      - aX m c (nx3 ((j 0).val / 2048) ((j 0).val % 2048) (j 1).val) := by
  have e : (V3 m ρ c main_v15 : S8192x4096.Idx → EReal)
      = truncf .bf16 (subf (shapeCast S8192x4096 (bX m ρ c) shapeCasts_S4x2048x4096_S8192x4096)
          (extf .f32 (truncf .bf16 (shapeCast S8192x4096 (bX m ρ c) shapeCasts_S4x2048x4096_S8192x4096) bitsLt_bf16_f32)
            bitsLt_bf16_f32)) bitsLt_bf16_f32 := by
    show StableHlo.after hostOps1 _ (Proc.devRef .tc main_v15) = _
    after_results <;> rfl
  rw [e, truncf_apply, subf_apply, extf_apply, truncf_apply, bX_eq, reshape_X]
theorem V3_v16 (c : Dev nD) (j : S1x4096.Idx) :
    (V3 m ρ c main_v16 j : EReal) = aB m c (nv (j 1).val) := by
  have e : (V3 m ρ c main_v16 : S1x4096.Idx → EReal) = shapeCast S1x4096 (bB m ρ c) shapeCasts_S4096_S1x4096 := by
    show StableHlo.after hostOps1 _ (Proc.devRef .tc main_v16) = _
    after_results <;> rfl
  rw [e, bB_eq, reshape_B]

/-! ## The result -/

/-- The result buffer is the second kernel's output array with its leading axis unflattened. -/
theorem W5_v18 (c : Dev nD) (j : S4x2048x4096.Idx) :
    (W5 m ρ c (Proc.devRef .tc main_v18) j : EReal)
      = yArr m ρ c
          (ix2 ⟨((j 0).val * 2048 + (j 1).val) % 8192, Nat.mod_lt _ (by norm_num)⟩ ⟨(j 2).val % 4096, Nat.mod_lt _ (by norm_num)⟩) := by
  have e : (W5 m ρ c (Proc.devRef .tc main_v18) : S4x2048x4096.Idx → EReal)
      = shapeCast S4x2048x4096 (b17 m ρ c) shapeCasts_S8192x4096_S4x2048x4096 := by
    show StableHlo.after hostOps2 _ (Proc.devRef .tc main_v18) = _
    after_results <;> rfl
  rw [e, b17_eq, reshape_Y]

end Cert.KernelIdeal.KHost

end
-- ==== Proof.R0Body.lean ====
/-
  One grid point of the weight kernel, read at an index.  The body picks a centroid for each code of its block by a
  four-level select tree on the code's bits, multiplies the picked block into the rotation block in three passes
  (the block itself, then two corrections that vanish when every entry is real: the second pass meets the zero
  remainder of the rotation, the third the block minus itself), adds the products to what the output block held,
  and at the last reduction step scales each row by its norm.
-/
import proofs.«415316_j46162308497811_3_alg».proof.Proof.Gen.KernelIdeal.Frame
import proofs.«415316_j46162308497811_3_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.R0

namespace Body

/-! ## The picked centroids and their two parts -/

section Defs
variable {F : FTy → Type} [FloatOps F]
/-- The block of picked centroids: entry `(p, q)` is the centroid the code `x0 (p, q)` names. -/
def picked (x0 : Vec F S1024x256 .i32) (x4 : Vec F S1x16 .f32) : FVec F S1024x256 .f32 :=
  k0_pay21 x0 (k0_pay5 x4) (k0_pay6 x4) (k0_pay7 x4) (k0_pay8 x4) (k0_pay9 x4) (k0_pay10 x4) (k0_pay11 x4) (k0_pay12 x4) (k0_pay13 x4) (k0_pay14 x4) (k0_pay15 x4) (k0_pay16 x4) (k0_pay17 x4) (k0_pay18 x0) (k0_pay19 x0 x4) (k0_pay20 x4)

/-- Its leading part, the first factor of the first and second products. -/
def pickedHi (x0 : Vec F S1024x256 .i32) (x4 : Vec F S1x16 .f32) : FVec F S1024x256 .bf16 :=
  k0_pay22 x0 (k0_pay5 x4) (k0_pay6 x4) (k0_pay7 x4) (k0_pay8 x4) (k0_pay9 x4) (k0_pay10 x4) (k0_pay11 x4) (k0_pay12 x4) (k0_pay13 x4) (k0_pay14 x4) (k0_pay15 x4) (k0_pay16 x4) (k0_pay17 x4) (k0_pay18 x0) (k0_pay19 x0 x4) (k0_pay20 x4)

/-- Its remainder, the first factor of the third product. -/
def pickedLo (x0 : Vec F S1024x256 .i32) (x4 : Vec F S1x16 .f32) : FVec F S1024x256 .bf16 :=
  k0_pay23 x0 (k0_pay5 x4) (k0_pay6 x4) (k0_pay7 x4) (k0_pay8 x4) (k0_pay9 x4) (k0_pay10 x4) (k0_pay11 x4) (k0_pay12 x4) (k0_pay13 x4) (k0_pay14 x4) (k0_pay15 x4) (k0_pay16 x4) (k0_pay17 x4) (k0_pay18 x0) (k0_pay19 x0 x4) (k0_pay20 x4)
end Defs

/-! ## What each case leaves, as the body's arithmetic on the blocks (any float instance) -/

section Pieces
variable {F : FTy → Type} [FloatOps F]

theorem hz : (![0, 0] : Fin 2 → Nat) = fun _ => 0 := funext fun a => by fin_cases a <;> rfl

/-- A MIDDLE STEP leaves the three products added to what the block held. -/
theorem out0_B_eq (c : Dev nD) (i : grid0.Coords) (a2 : Memref sig .tc .vmem S1024x256 .i32) (h2 : a2.IsWhole) (a3 : Memref sig .tc .vmem S256x4096 .bf16) (h3 : a3.IsWhole) (a4 : Memref sig .tc .vmem S256x4096 .bf16) (h4 : a4.IsWhole) (a5 : Memref sig .tc .vmem S1024x1 .f32) (h5 : a5.IsWhole) (a6 : Memref sig .tc .vmem S1x16 .f32) (h6 : a6.IsWhole) (a7 : Memref sig .tc .vmem S1024x4096 .f32) (h7 : a7.IsWhole) (hc0 : ¬cond0_0 i) (hc1 : ¬cond0_1 i)
    (x0 : Vec F S1024x256 .i32) (x1 : Vec F S256x4096 .bf16) (x2 : Vec F S256x4096 .bf16) (x3 : Vec F S1024x1 .f32) (x4 : Vec F S1x16 .f32) (xo : Vec F S1024x4096 .f32) :
    out0_B_5 c i a2 h2 a3 h3 a4 h4 a5 h5 a6 h6 a7 h7 hc0 hc1 x0 x1 x2 x3 x4 xo
      = k0_pay1 (pickedHi x0 x4) (pickedLo x0 x4) xo x1 x2 := by
  unfold out0_B_5
  rw [View.read_writes_eq_canon _ _ _ (cover0_B_5 c i a2 h2 a3 h3 a4 h4 a5 h5 a6 h6 a7 h7 hc0 hc1 x0 x1 x2 x3 x4 xo)]
  unfold kernelRun0_B
  dsimp only
  sl_unfold_words
  rw [View.canon_unit_zero hz]
  unfold pickedHi pickedLo
  simp only [View.readAt_eq_ld, h2.read_unread, h3.read_unread, h4.read_unread, h5.read_unread, h6.read_unread, h7.read_unread,
    View.ld_unit_zero (S := S1024x256) hz, View.ld_unit_zero (S := S256x4096) hz, View.ld_unit_zero (S := S1x16) hz,
    View.ld_unit_zero (S := S1024x4096) hz, View.ld_unit_zero (S := S1024x1) hz]

/-- THE FIRST STEP resets the block, reads the zero block back, and leaves the three products added to it. -/
theorem out0_A_eq (c : Dev nD) (i : grid0.Coords) (a2 : Memref sig .tc .vmem S1024x256 .i32) (h2 : a2.IsWhole) (a3 : Memref sig .tc .vmem S256x4096 .bf16) (h3 : a3.IsWhole) (a4 : Memref sig .tc .vmem S256x4096 .bf16) (h4 : a4.IsWhole) (a5 : Memref sig .tc .vmem S1024x1 .f32) (h5 : a5.IsWhole) (a6 : Memref sig .tc .vmem S1x16 .f32) (h6 : a6.IsWhole) (a7 : Memref sig .tc .vmem S1024x4096 .f32) (h7 : a7.IsWhole) (hc0 : cond0_0 i) (hc1 : ¬cond0_1 i)
    (x0 : Vec F S1024x256 .i32) (x1 : Vec F S256x4096 .bf16) (x2 : Vec F S256x4096 .bf16) (x3 : Vec F S1024x1 .f32) (x4 : Vec F S1x16 .f32) :
    out0_A_5 c i a2 h2 a3 h3 a4 h4 a5 h5 a6 h6 a7 h7 hc0 hc1 x0 x1 x2 x3 x4
      = k0_pay1 (pickedHi x0 x4) (pickedLo x0 x4) (k0_pay3 (F := F)) x1 x2 := by
  unfold out0_A_5
  rw [View.read_writes_eq_canon _ _ _ (cover0_A_5 c i a2 h2 a3 h3 a4 h4 a5 h5 a6 h6 a7 h7 hc0 hc1 x0 x1 x2 x3 x4)]
  unfold kernelRun0_A
  dsimp only
  sl_unfold_words
  rw [View.canon_cons_unit_zero (S := S1024x4096) hz, View.readCov_unit_zero (S := S1024x4096) _ hz]
  unfold pickedHi pickedLo
  simp only [View.readAt_eq_ld, h2.read_unread, h3.read_unread, h4.read_unread, h5.read_unread, h6.read_unread, h7.read_unread,
    View.ld_unit_zero (S := S1024x256) hz, View.ld_unit_zero (S := S256x4096) hz, View.ld_unit_zero (S := S1x16) hz,
    View.ld_unit_zero (S := S1024x4096) hz, View.ld_unit_zero (S := S1024x1) hz]

/-- THE LAST STEP updates the block as a middle step does, reads it back, and leaves it scaled by the row norms. -/
theorem out0_C_eq (c : Dev nD) (i : grid0.Coords) (a2 : Memref sig .tc .vmem S1024x256 .i32) (h2 : a2.IsWhole) (a3 : Memref sig .tc .vmem S256x4096 .bf16) (h3 : a3.IsWhole) (a4 : Memref sig .tc .vmem S256x4096 .bf16) (h4 : a4.IsWhole) (a5 : Memref sig .tc .vmem S1024x1 .f32) (h5 : a5.IsWhole) (a6 : Memref sig .tc .vmem S1x16 .f32) (h6 : a6.IsWhole) (a7 : Memref sig .tc .vmem S1024x4096 .f32) (h7 : a7.IsWhole) (hc0 : ¬cond0_0 i) (hc1 : cond0_1 i)
    (x0 : Vec F S1024x256 .i32) (x1 : Vec F S256x4096 .bf16) (x2 : Vec F S256x4096 .bf16) (x3 : Vec F S1024x1 .f32) (x4 : Vec F S1x16 .f32) (xo : Vec F S1024x4096 .f32) :
    out0_C_5 c i a2 h2 a3 h3 a4 h4 a5 h5 a6 h6 a7 h7 hc0 hc1 x0 x1 x2 x3 x4 xo
      = k0_pay2 (k0_pay1 (pickedHi x0 x4) (pickedLo x0 x4) xo x1 x2) x3 := by
  unfold out0_C_5
  rw [View.read_writes_eq_canon _ _ _ (cover0_C_5 c i a2 h2 a3 h3 a4 h4 a5 h5 a6 h6 a7 h7 hc0 hc1 x0 x1 x2 x3 x4 xo)]
  unfold kernelRun0_C
  dsimp only
  sl_unfold_words
  rw [View.canon_cons_unit_zero (S := S1024x4096) hz, View.readCov_unit_zero (S := S1024x4096) _ hz]
  unfold pickedHi pickedLo
  simp only [View.readAt_eq_ld, h2.read_unread, h3.read_unread, h4.read_unread, h5.read_unread, h6.read_unread, h7.read_unread,
    View.ld_unit_zero (S := S1024x256) hz, View.ld_unit_zero (S := S256x4096) hz, View.ld_unit_zero (S := S1x16) hz,
    View.ld_unit_zero (S := S1024x4096) hz, View.ld_unit_zero (S := S1024x1) hz]

end Pieces

/-! ## The select tree on a code's four bits -/

section Tree

/-- Bit `b` of a code, as the one-bit word the body's comparison produces. -/
def codeBit (w : BitVec 32) (b : BitVec 32) : BitVec 1 :=
  IntOp.cmpi .ne (IntOp.andi (IntOp.shrsi .vector w b) 1#32) 0#32

/-- The four-level tree of selects on a code's bits, over sixteen leaves, picks the leaf the code names. -/
theorem tree_pick {α : Type} (w : BitVec 32) (hw : w.toNat < 16) (c : Fin 16 → α) :
    Scalar.select (codeBit w 3#32)
      (Scalar.select (codeBit w 2#32)
        (Scalar.select (codeBit w 1#32) (Scalar.select (codeBit w 0#32) (c 15) (c 14)) (Scalar.select (codeBit w 0#32) (c 13) (c 12)))
        (Scalar.select (codeBit w 1#32) (Scalar.select (codeBit w 0#32) (c 11) (c 10)) (Scalar.select (codeBit w 0#32) (c 9) (c 8))))
      (Scalar.select (codeBit w 2#32)
        (Scalar.select (codeBit w 1#32) (Scalar.select (codeBit w 0#32) (c 7) (c 6)) (Scalar.select (codeBit w 0#32) (c 5) (c 4)))
        (Scalar.select (codeBit w 1#32) (Scalar.select (codeBit w 0#32) (c 3) (c 2)) (Scalar.select (codeBit w 0#32) (c 1) (c 0))))
      = c ⟨w.toNat, hw⟩ := by
  obtain ⟨k, rfl⟩ : ∃ k : Fin 16, w = BitVec.ofNat 32 k.val :=
    ⟨⟨w.toNat, hw⟩, by simp⟩
  fin_cases k <;> rfl

end Tree

section Pick
variable {F : FTy → Type} [FloatOps F]

/-- Column `k` of the one-row centroid block, cut out as a 1 × 1 block and read at its only entry, is entry `(0, k)`. -/
theorem centroid_leaf (x4 : Vec F S1x16 .f32) (k : Nat) (hk : k < 16) (hs : S1x16.Slices ![0, k] S1x1)
    (hp : ∀ a, (![0, 0] : Fin S1x1.rank → Nat) a < S1x1.size a) :
    extractAt ![0, 0] (extractStridedSlice S1x1 ![0, k] (k0_pay4 x4) hs) hp = x4 (ix2 (0 : Fin 1) (⟨k, hk⟩ : Fin 16)) := by
  unfold k0_pay4
  rw [shapeCast_self]
  unfold extractAt extractStridedSlice
  exact congrArg x4 (funext fun a => Fin.ext (by
    match a with
    | ⟨0, _⟩ => rfl
    | ⟨1, _⟩ => rfl))

/-- The picked block at `(p, q)` is the centroid whose number is the code there. -/
theorem picked_apply (x0 : Vec F S1024x256 .i32) (x4 : Vec F S1x16 .f32) (p : Fin 1024) (q : Fin 256)
    (hw : (x0 (ix2 p q)).toNat < 16) :
    picked x0 x4 (ix2 p q) = x4 (ix2 (0 : Fin 1) (⟨(x0 (ix2 p q)).toNat, hw⟩ : Fin 16)) := by
  refine Eq.trans ?_ (tree_pick (x0 (ix2 p q)) hw (fun k => x4 (ix2 (0 : Fin 1) k)))
  unfold picked k0_pay21 k0_pay19 k0_pay20 k0_pay18 k0_pay5 k0_pay6 k0_pay7 k0_pay8 k0_pay9 k0_pay10 k0_pay11 k0_pay12
    k0_pay13 k0_pay14 k0_pay15 k0_pay16 k0_pay17
  simp only [centroid_leaf x4 0 (by decide), centroid_leaf x4 1 (by decide), centroid_leaf x4 2 (by decide),
    centroid_leaf x4 3 (by decide), centroid_leaf x4 4 (by decide), centroid_leaf x4 5 (by decide),
    centroid_leaf x4 6 (by decide), centroid_leaf x4 7 (by decide), centroid_leaf x4 8 (by decide),
    centroid_leaf x4 9 (by decide), centroid_leaf x4 10 (by decide), centroid_leaf x4 11 (by decide),
    centroid_leaf x4 12 (by decide), centroid_leaf x4 13 (by decide), centroid_leaf x4 14 (by decide),
    centroid_leaf x4 15 (by decide)]
  rfl

end Pick

/-! ## The block products at an index (extended reals) -/

section Products

/-- Left operand index of the block product, row coordinate: the output's row. -/
theorem lhs_prod_0 (j : S1024x4096.Idx) (q : dot_S1024x256_S256x4096_S1024x4096_1_0_0_1_n_n.contr.Idx) :
    (dot_S1024x256_S256x4096_S1024x4096_1_0_0_1_n_n.lhsIdx j q 0).val = (j 0).val := by
  unfold DotDims.lhsIdx
  rw [dif_neg (show ¬(0 : Fin S1024x256.rank) ∈ dot_S1024x256_S256x4096_S1024x4096_1_0_0_1_n_n.lhsBatch by decide), dif_pos (show (0 : Fin S1024x256.rank) ∈ dot_S1024x256_S256x4096_S1024x4096_1_0_0_1_n_n.lhsNonContracting by decide)]
  rfl
/-- Left operand index, column coordinate: the summation index. -/
theorem lhs_prod_1 (j : S1024x4096.Idx) (q : dot_S1024x256_S256x4096_S1024x4096_1_0_0_1_n_n.contr.Idx) :
    (dot_S1024x256_S256x4096_S1024x4096_1_0_0_1_n_n.lhsIdx j q 1).val = (q ⟨0, by decide⟩).val :=
  dot_S1024x256_S256x4096_S1024x4096_1_0_0_1_n_n.lhsIdx_val_of_single rfl j q
/-- Right operand index, row coordinate: the summation index. -/
theorem rhs_prod_0 (j : S1024x4096.Idx) (q : dot_S1024x256_S256x4096_S1024x4096_1_0_0_1_n_n.contr.Idx) :
    (dot_S1024x256_S256x4096_S1024x4096_1_0_0_1_n_n.rhsIdx j q 0).val = (q ⟨0, by decide⟩).val :=
  dot_S1024x256_S256x4096_S1024x4096_1_0_0_1_n_n.rhsIdx_val_of_single rfl j q
/-- Right operand index, column coordinate: the output's column. -/
theorem rhs_prod_1 (j : S1024x4096.Idx) (q : dot_S1024x256_S256x4096_S1024x4096_1_0_0_1_n_n.contr.Idx) :
    (dot_S1024x256_S256x4096_S1024x4096_1_0_0_1_n_n.rhsIdx j q 1).val = (j 1).val := by
  unfold DotDims.rhsIdx
  rw [dif_neg (show ¬(1 : Fin S256x4096.rank) ∈ dot_S1024x256_S256x4096_S1024x4096_1_0_0_1_n_n.rhsBatch by decide), dif_pos (show (1 : Fin S256x4096.rank) ∈ dot_S1024x256_S256x4096_S1024x4096_1_0_0_1_n_n.rhsNonContracting by decide)]
  rfl

/-- One block product into the zero block, at `(p, n)`: the sum over the 256 columns of the left block. -/
theorem prod_zero_apply (lhs : FVec Ideal S1024x256 .bf16) (rhs : FVec Ideal S256x4096 .bf16) (p : Fin 1024) (n : Fin 4096) :
    matmul dot_S1024x256_S256x4096_S1024x4096_1_0_0_1_n_n none lhs rhs (constant S1024x4096 .f32 0x00000000#32) (ix2 p n)
      = ∑ k : Fin 256, lhs (ix2 p k) * rhs (ix2 k n) := by
  refine (Ideal.matmul_constant_zero_apply dot_S1024x256_S256x4096_S1024x4096_1_0_0_1_n_n none lhs rhs (ix2 p n)).trans ?_
  rw [← Equiv.sum_comp (ValueIdx.contrEquiv1 dot_S1024x256_S256x4096_S1024x4096_1_0_0_1_n_n 256 rfl rfl).symm]
  refine Finset.sum_congr rfl fun k _ => ?_
  have hk := ValueIdx.contrEquiv1_symm_val dot_S1024x256_S256x4096_S1024x4096_1_0_0_1_n_n 256 rfl rfl k
  have el : dot_S1024x256_S256x4096_S1024x4096_1_0_0_1_n_n.lhsIdx (ix2 p n) ((ValueIdx.contrEquiv1 dot_S1024x256_S256x4096_S1024x4096_1_0_0_1_n_n 256 rfl rfl).symm k) = ix2 p k := funext fun a => Fin.ext (by
    match a with
    | ⟨0, _⟩ => exact lhs_prod_0 _ _
    | ⟨1, _⟩ => exact (lhs_prod_1 _ _).trans hk)
  have er : dot_S1024x256_S256x4096_S1024x4096_1_0_0_1_n_n.rhsIdx (ix2 p n) ((ValueIdx.contrEquiv1 dot_S1024x256_S256x4096_S1024x4096_1_0_0_1_n_n 256 rfl rfl).symm k) = ix2 k n := funext fun a => Fin.ext (by
    match a with
    | ⟨0, _⟩ => exact (rhs_prod_0 _ _).trans hk
    | ⟨1, _⟩ => exact rhs_prod_1 _ _)
  rw [el, er]

/-- The three products added to a block, at `(p, n)`. -/
theorem pay1_apply (hi lo : FVec Ideal S1024x256 .bf16) (xo : Vec Ideal S1024x4096 .f32) (x1 x2 : Vec Ideal S256x4096 .bf16)
    (p : Fin 1024) (n : Fin 4096) :
    k0_pay1 (F := Ideal) hi lo xo x1 x2 (ix2 p n)
      = xo (ix2 p n) + ((∑ k : Fin 256, hi (ix2 p k) * x1 (ix2 k n) + ∑ k : Fin 256, hi (ix2 p k) * x2 (ix2 k n))
          + ∑ k : Fin 256, lo (ix2 p k) * x1 (ix2 k n)) := by
  unfold k0_pay1
  simp only [shapeCast_self]
  exact congrArg₂ (· + ·) rfl (congrArg₂ (· + ·) (congrArg₂ (· + ·) (prod_zero_apply hi x1 p n) (prod_zero_apply hi x2 p n)) (prod_zero_apply lo x1 p n))

end Products

/-! ## On real-valued blocks -/

section Reals

/-- At a block of codes below sixteen and a centroid row of real numbers, the picked block is the centroid of the code. -/
theorem picked_real (x0 : Vec Ideal S1024x256 .i32) (x4 : Vec Ideal S1x16 .f32) (qa : ℕ → ℕ → ℕ) (ca : ℕ → ℝ)
    (hq : ∀ y : S1024x256.Idx, (x0 y).toNat = qa (y 0).val (y 1).val) (hq16 : ∀ y : S1024x256.Idx, (x0 y).toNat < 16)
    (hc : ∀ y : S1x16.Idx, x4 y = ((ca (y 1).val : ℝ) : EReal)) (p : Fin 1024) (q : Fin 256) :
    picked (F := Ideal) x0 x4 (ix2 p q) = ((ca (qa p.val q.val) : ℝ) : EReal) := by
  rw [picked_apply x0 x4 p q (hq16 (ix2 p q)), hc]
  exact congrArg (fun t : ℕ => ((ca t : ℝ) : EReal)) (hq (ix2 p q))

/-- The three products at `(p, n)`: the second meets the zero remainder of the rotation block, the third the picked block
    minus itself, so only the first is left, a sum of products of real numbers. -/
theorem three_products (x0 : Vec Ideal S1024x256 .i32) (x1 x2 : Vec Ideal S256x4096 .bf16) (x4 : Vec Ideal S1x16 .f32)
    (qa : ℕ → ℕ → ℕ) (ca : ℕ → ℝ) (pa : ℕ → ℕ → ℝ)
    (hq : ∀ y : S1024x256.Idx, (x0 y).toNat = qa (y 0).val (y 1).val) (hq16 : ∀ y : S1024x256.Idx, (x0 y).toNat < 16)
    (hp : ∀ y : S256x4096.Idx, x1 y = ((pa (y 0).val (y 1).val : ℝ) : EReal)) (hp0 : ∀ y : S256x4096.Idx, x2 y = 0)
    (hc : ∀ y : S1x16.Idx, x4 y = ((ca (y 1).val : ℝ) : EReal)) (p : Fin 1024) (n : Fin 4096) :
    ((∑ k : Fin 256, pickedHi (F := Ideal) x0 x4 (ix2 p k) * x1 (ix2 k n) + ∑ k : Fin 256, pickedHi (F := Ideal) x0 x4 (ix2 p k) * x2 (ix2 k n))
        + ∑ k : Fin 256, pickedLo (F := Ideal) x0 x4 (ix2 p k) * x1 (ix2 k n))
      = ((∑ q ∈ Finset.range 256, ca (qa p.val q) * pa q n.val : ℝ) : EReal) := by
  have hhi : ∀ k : Fin 256, pickedHi (F := Ideal) x0 x4 (ix2 p k) = ((ca (qa p.val k.val) : ℝ) : EReal) :=
    fun k => picked_real x0 x4 qa ca hq hq16 hc p k
  have hlo : ∀ k : Fin 256, pickedLo (F := Ideal) x0 x4 (ix2 p k) = 0 := fun k => by
    show picked (F := Ideal) x0 x4 (ix2 p k) - picked (F := Ideal) x0 x4 (ix2 p k) = 0
    rw [picked_real x0 x4 qa ca hq hq16 hc p k, ← EReal.coe_sub, sub_self, EReal.coe_zero]
  have hp' : ∀ k : Fin 256, x1 (ix2 k n) = ((pa k.val n.val : ℝ) : EReal) := fun k => hp (ix2 k n)
  have hp0' : ∀ k : Fin 256, x2 (ix2 k n) = 0 := fun k => hp0 (ix2 k n)
  simp only [hhi, hlo, hp', hp0', mul_zero, zero_mul, Finset.sum_const_zero, add_zero, ← EReal.coe_mul]
  rw [Cert.Bridge.coe_sum]
  exact congrArg (fun t : ℝ => (t : EReal)) (Cert.Bridge.sum_fin_range 256 (fun k => ca (qa p.val k) * pa k n.val))

/-- The zero block at an index. -/
theorem pay3_apply (j : S1024x4096.Idx) : k0_pay3 (F := Ideal) j = 0 := by
  unfold k0_pay3
  exact Ideal.ofBits_zero_f32

/-- The scaled block at `(p, n)`: the entry times the row's norm. -/
theorem pay2_apply (v : Vec Ideal S1024x4096 .f32) (r : Vec Ideal S1024x1 .f32) (p : Fin 1024) (n : Fin 4096) :
    k0_pay2 (F := Ideal) v r (ix2 p n) = v (ix2 p n) * r (ix2 p (0 : Fin 1)) := by
  unfold k0_pay2
  simp only [shapeCast_self]
  refine congrArg (v (ix2 p n) * ·) ?_
  exact broadcastTo_apply r _ (ix2 p n) (ix2 p (0 : Fin 1)) (fun a => by
    match a with
    | ⟨0, _⟩ => rfl
    | ⟨1, _⟩ => rfl)

end Reals

end Body

open Body

/-! ## The three cases at an index -/

/-- FIRST REDUCTION STEP of a row tile: the output block is reset, so it ends holding this step's products alone. -/
theorem out0_A_apply (c : Dev nD) (i : grid0.Coords) (a2 : Memref sig .tc .vmem S1024x256 .i32) (h2 : a2.IsWhole) (a3 : Memref sig .tc .vmem S256x4096 .bf16) (h3 : a3.IsWhole) (a4 : Memref sig .tc .vmem S256x4096 .bf16) (h4 : a4.IsWhole) (a5 : Memref sig .tc .vmem S1024x1 .f32) (h5 : a5.IsWhole) (a6 : Memref sig .tc .vmem S1x16 .f32) (h6 : a6.IsWhole) (a7 : Memref sig .tc .vmem S1024x4096 .f32) (h7 : a7.IsWhole) (hc0 : cond0_0 i) (hc1 : ¬cond0_1 i)
    (x0 : Vec Ideal S1024x256 .i32) (x1 : Vec Ideal S256x4096 .bf16) (x2 : Vec Ideal S256x4096 .bf16) (x3 : Vec Ideal S1024x1 .f32) (x4 : Vec Ideal S1x16 .f32)
    (qa : ℕ → ℕ → ℕ) (ca : ℕ → ℝ) (pa : ℕ → ℕ → ℝ)
    (hq : ∀ y : S1024x256.Idx, (x0 y).toNat = qa (y 0).val (y 1).val) (hq16 : ∀ y : S1024x256.Idx, (x0 y).toNat < 16)
    (hp : ∀ y : S256x4096.Idx, x1 y = ((pa (y 0).val (y 1).val : ℝ) : EReal)) (hp0 : ∀ y : S256x4096.Idx, x2 y = 0)
    (hc : ∀ y : S1x16.Idx, x4 y = ((ca (y 1).val : ℝ) : EReal))
    (y : S1024x4096.Idx) :
    out0_A_5 (F := Ideal) c i a2 h2 a3 h3 a4 h4 a5 h5 a6 h6 a7 h7 hc0 hc1 x0 x1 x2 x3 x4 y
      = ((∑ q ∈ Finset.range 256, ca (qa (y 0).val q) * pa q (y 1).val : ℝ) : EReal) := by
  obtain ⟨p, n, rfl⟩ : ∃ (p : Fin 1024) (n : Fin 4096), y = ix2 p n := ⟨y 0, y 1, eq_ix2 y⟩
  refine (congrFun (out0_A_eq (F := Ideal) c i a2 h2 a3 h3 a4 h4 a5 h5 a6 h6 a7 h7 hc0 hc1 x0 x1 x2 x3 x4) (ix2 p n)).trans ?_
  refine (pay1_apply _ _ _ x1 x2 p n).trans ?_
  rw [pay3_apply, zero_add]
  exact three_products x0 x1 x2 x4 qa ca pa hq hq16 hp hp0 hc p n

/-- A MIDDLE STEP: this step's products added to what the block held. -/
theorem out0_B_apply (c : Dev nD) (i : grid0.Coords) (a2 : Memref sig .tc .vmem S1024x256 .i32) (h2 : a2.IsWhole) (a3 : Memref sig .tc .vmem S256x4096 .bf16) (h3 : a3.IsWhole) (a4 : Memref sig .tc .vmem S256x4096 .bf16) (h4 : a4.IsWhole) (a5 : Memref sig .tc .vmem S1024x1 .f32) (h5 : a5.IsWhole) (a6 : Memref sig .tc .vmem S1x16 .f32) (h6 : a6.IsWhole) (a7 : Memref sig .tc .vmem S1024x4096 .f32) (h7 : a7.IsWhole) (hc0 : ¬cond0_0 i) (hc1 : ¬cond0_1 i)
    (x0 : Vec Ideal S1024x256 .i32) (x1 : Vec Ideal S256x4096 .bf16) (x2 : Vec Ideal S256x4096 .bf16) (x3 : Vec Ideal S1024x1 .f32) (x4 : Vec Ideal S1x16 .f32) (xo : Vec Ideal S1024x4096 .f32)
    (qa : ℕ → ℕ → ℕ) (ca : ℕ → ℝ) (pa : ℕ → ℕ → ℝ)
    (hq : ∀ y : S1024x256.Idx, (x0 y).toNat = qa (y 0).val (y 1).val) (hq16 : ∀ y : S1024x256.Idx, (x0 y).toNat < 16)
    (hp : ∀ y : S256x4096.Idx, x1 y = ((pa (y 0).val (y 1).val : ℝ) : EReal)) (hp0 : ∀ y : S256x4096.Idx, x2 y = 0)
    (hc : ∀ y : S1x16.Idx, x4 y = ((ca (y 1).val : ℝ) : EReal))
    (y : S1024x4096.Idx) (acc : ℝ) (hacc : xo y = ((acc : ℝ) : EReal)) :
    out0_B_5 (F := Ideal) c i a2 h2 a3 h3 a4 h4 a5 h5 a6 h6 a7 h7 hc0 hc1 x0 x1 x2 x3 x4 xo y
      = ((acc + ∑ q ∈ Finset.range 256, ca (qa (y 0).val q) * pa q (y 1).val : ℝ) : EReal) := by
  obtain ⟨p, n, rfl⟩ : ∃ (p : Fin 1024) (n : Fin 4096), y = ix2 p n := ⟨y 0, y 1, eq_ix2 y⟩
  refine (congrFun (out0_B_eq (F := Ideal) c i a2 h2 a3 h3 a4 h4 a5 h5 a6 h6 a7 h7 hc0 hc1 x0 x1 x2 x3 x4 xo) (ix2 p n)).trans ?_
  refine (pay1_apply _ _ xo x1 x2 p n).trans ?_
  rw [hacc, three_products x0 x1 x2 x4 qa ca pa hq hq16 hp hp0 hc p n]
  exact (EReal.coe_add _ _).symm

/-- THE LAST STEP: the completed sum, scaled by the row's norm. -/
theorem out0_C_apply (c : Dev nD) (i : grid0.Coords) (a2 : Memref sig .tc .vmem S1024x256 .i32) (h2 : a2.IsWhole) (a3 : Memref sig .tc .vmem S256x4096 .bf16) (h3 : a3.IsWhole) (a4 : Memref sig .tc .vmem S256x4096 .bf16) (h4 : a4.IsWhole) (a5 : Memref sig .tc .vmem S1024x1 .f32) (h5 : a5.IsWhole) (a6 : Memref sig .tc .vmem S1x16 .f32) (h6 : a6.IsWhole) (a7 : Memref sig .tc .vmem S1024x4096 .f32) (h7 : a7.IsWhole) (hc0 : ¬cond0_0 i) (hc1 : cond0_1 i)
    (x0 : Vec Ideal S1024x256 .i32) (x1 : Vec Ideal S256x4096 .bf16) (x2 : Vec Ideal S256x4096 .bf16) (x3 : Vec Ideal S1024x1 .f32) (x4 : Vec Ideal S1x16 .f32) (xo : Vec Ideal S1024x4096 .f32)
    (qa : ℕ → ℕ → ℕ) (ca : ℕ → ℝ) (pa : ℕ → ℕ → ℝ)
    (hq : ∀ y : S1024x256.Idx, (x0 y).toNat = qa (y 0).val (y 1).val) (hq16 : ∀ y : S1024x256.Idx, (x0 y).toNat < 16)
    (hp : ∀ y : S256x4096.Idx, x1 y = ((pa (y 0).val (y 1).val : ℝ) : EReal)) (hp0 : ∀ y : S256x4096.Idx, x2 y = 0)
    (hc : ∀ y : S1x16.Idx, x4 y = ((ca (y 1).val : ℝ) : EReal))
    (ra : ℕ → ℝ) (hr : ∀ y : S1024x1.Idx, x3 y = ((ra (y 0).val : ℝ) : EReal))
    (y : S1024x4096.Idx) (acc : ℝ) (hacc : xo y = ((acc : ℝ) : EReal)) :
    out0_C_5 (F := Ideal) c i a2 h2 a3 h3 a4 h4 a5 h5 a6 h6 a7 h7 hc0 hc1 x0 x1 x2 x3 x4 xo y
      = (((acc + ∑ q ∈ Finset.range 256, ca (qa (y 0).val q) * pa q (y 1).val) * ra (y 0).val : ℝ) : EReal) := by
  obtain ⟨p, n, rfl⟩ : ∃ (p : Fin 1024) (n : Fin 4096), y = ix2 p n := ⟨y 0, y 1, eq_ix2 y⟩
  refine (congrFun (out0_C_eq (F := Ideal) c i a2 h2 a3 h3 a4 h4 a5 h5 a6 h6 a7 h7 hc0 hc1 x0 x1 x2 x3 x4 xo) (ix2 p n)).trans ?_
  refine (pay2_apply _ x3 p n).trans ?_
  rw [pay1_apply, hacc, three_products x0 x1 x2 x4 qa ca pa hq hq16 hp hp0 hc p n, hr (ix2 p (0 : Fin 1)), ← EReal.coe_add]
  exact (EReal.coe_mul _ _).symm

end Cert.KernelIdeal.R0

end
-- ==== Proof.R0Value.lean ====
/-
  The weight kernel's result array.  Row tile `t / 16`, reduction step `t % 16`: after the step the output block
  holds the partial sums over the first `(t % 16 + 1) · 256` codes of each row, and after the sixteenth the whole sum
  scaled by the row norm; the four row tiles' blocks, each written back once, tile the array.
-/
import proofs.«415316_j46162308497811_3_alg».proof.Proof.R0Body

noncomputable section

open Idealize.ShloMosaic Idealize.ShloMosaic.TcCoe Idealize.SL.Sem Idealize.ShloMosaic.ValueIdx
open Idealize.ShloMosaic.Pipeline (Dat)
open Cert.KernelIdeal Cert.KernelIdeal.Gen
open Cert.Bridge

namespace Cert.KernelIdeal.R0

variable (V : (c : Dev nD) → (b : Ref sig .tc) → Buf (Elt Ideal) ((c : Thread nD τ).loc b))

/-- The block index maps of the six windows, decided once over the grid: point `t` is row tile `t / 16` at reduction
    step `t % 16`. -/
theorem idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-! ## The input blocks of a point, read at an index -/

/-- The codes' block: the code array at row `(t / 16) · 1024 + p`, column `(t % 16) · 256 + q`. -/
theorem codes_blk (c : Dev nD) (qn : ℕ → ℕ → ℕ)
    (hq : ∀ j : S4096x4096.Idx, (V c main_arg1 j : BitVec 32).toNat = qn (j 0).val (j 1).val)
    (t : Fin cfg0.N) (y : S1024x256.Idx) :
    ((iblk0 V c 0 t : Vec Ideal S1024x256 .i32) y).toNat = qn (t.val / 16 * 1024 + (y 0).val) (t.val % 16 * 256 + (y 1).val) := by
  obtain ⟨e0, e1, -⟩ := idx_facts t
  show (V c main_arg1 (((cfg0.win 0).blk t).view.emb y) : BitVec 32).toNat = _
  rw [hq]
  show qn (win0_0.index t (0 : Fin 2) * 1024 + 1 * (y 0).val) (win0_0.index t (1 : Fin 2) * 256 + 1 * (y 1).val) = _
  rw [e0, e1, Nat.one_mul, Nat.one_mul]

/-- Every code of the block is below sixteen. -/
theorem codes_blk_lt (c : Dev nD) (hq16 : ∀ j : S4096x4096.Idx, (V c main_arg1 j : BitVec 32).toNat < 16)
    (t : Fin cfg0.N) (y : S1024x256.Idx) : ((iblk0 V c 0 t : Vec Ideal S1024x256 .i32) y).toNat < 16 := by
  show (V c main_arg1 (((cfg0.win 0).blk t).view.emb y) : BitVec 32).toNat < 16
  exact hq16 _

/-- The rotation's block: rows `(t % 16) · 256 + q` of the rotation, every column. -/
theorem rot_blk (c : Dev nD) (Pn : ℕ → ℕ → ℝ)
    (hhi : ∀ j : S4096x4096.Idx, (V c main_v0 j : EReal) = ((Pn (j 0).val (j 1).val : ℝ) : EReal))
    (t : Fin cfg0.N) (y : S256x4096.Idx) :
    (iblk0 V c 1 t : Vec Ideal S256x4096 .bf16) y = ((Pn (t.val % 16 * 256 + (y 0).val) (y 1).val : ℝ) : EReal) := by
  obtain ⟨-, -, e0, e1, -⟩ := idx_facts t
  show (V c main_v0 (((cfg0.win 1).blk t).view.emb y) : EReal) = _
  rw [hhi]
  show ((Pn (win0_1.index t (0 : Fin 2) * 256 + 1 * (y 0).val) (win0_1.index t (1 : Fin 2) * 4096 + 1 * (y 1).val) : ℝ) : EReal) = _
  rw [e0, e1, Nat.one_mul, Nat.one_mul, Nat.zero_mul, Nat.zero_add]

/-- The rotation's remainder block at a point, as a block of its literal type. -/
abbrev remBlk (c : Dev nD) (t : Fin cfg0.N) : Vec Ideal S256x4096 .bf16 := iblk0 V c 2 t

/-- The rotation's remainder block is zero. -/
theorem rem_blk (c : Dev nD) (hlo : ∀ j : S4096x4096.Idx, (V c main_v3 j : EReal) = (0 : EReal))
    (t : Fin cfg0.N) (y : S256x4096.Idx) : remBlk V c t y = 0 := by
  show (V c main_v3 (((cfg0.win 2).blk t).view.emb y) : EReal) = (0 : EReal)
  exact hlo _

/-- The row norms' block: the norms of rows `(t / 16) · 1024 + p`. -/
theorem norm_blk (c : Dev nD) (rn : ℕ → ℝ)
    (hrn : ∀ j : S4096x1.Idx, (V c main_v4 j : EReal) = ((rn (j 0).val : ℝ) : EReal))
    (t : Fin cfg0.N) (y : S1024x1.Idx) :
    (iblk0 V c 3 t : Vec Ideal S1024x1 .f32) y = ((rn (t.val / 16 * 1024 + (y 0).val) : ℝ) : EReal) := by
  obtain ⟨-, -, -, -, -, -, e0, -⟩ := idx_facts t
  show (V c main_v4 (((cfg0.win 3).blk t).view.emb y) : EReal) = _
  rw [hrn]
  show ((rn (win0_3.index t (0 : Fin 2) * 1024 + 1 * (y 0).val) : ℝ) : EReal) = _
  rw [e0, Nat.one_mul]

/-- The centroids' block is the whole centroid row. -/
theorem cen_blk (c : Dev nD) (cn : ℕ → ℝ)
    (hcen : ∀ j : S1x16.Idx, (V c main_v5 j : EReal) = ((cn (j 1).val : ℝ) : EReal))
    (t : Fin cfg0.N) (y : S1x16.Idx) :
    (iblk0 V c 4 t : Vec Ideal S1x16 .f32) y = ((cn (y 1).val : ℝ) : EReal) := by
  obtain ⟨-, -, -, -, -, -, -, -, e0, e1, -⟩ := idx_facts t
  show (V c main_v5 (((cfg0.win 4).blk t).view.emb y) : EReal) = _
  rw [hcen]
  show ((cn (win0_4.index t (1 : Fin 2) * 16 + 1 * (y 1).val) : ℝ) : EReal) = _
  rw [e1, Nat.one_mul, Nat.zero_mul, Nat.zero_add]

/-! ## What the output block holds after each point -/

/-- A sum over the first `(k + 1) · 256` indices is the sum over the first `k · 256` and the next 256. -/
private theorem sum_step (f : ℕ → ℝ) (k : ℕ) :
    ∑ i ∈ Finset.range ((k + 1) * 256), f i
      = ∑ i ∈ Finset.range (k * 256), f i + ∑ q ∈ Finset.range 256, f (k * 256 + q) := by
  rw [show (k + 1) * 256 = k * 256 + 256 from Nat.succ_mul k 256, Finset.sum_range_add]

/-- Entry `(p, l)` of the output block after point `n`: the partial sum over the codes met so far of row
    `(n / 16) · 1024 + p`, and after the tile's last step the whole sum scaled by the row's norm. -/
def accAfter (cn : ℕ → ℝ) (qn : ℕ → ℕ → ℕ) (Pn : ℕ → ℕ → ℝ) (rn : ℕ → ℝ) (n p l : ℕ) : ℝ :=
  if n % 16 = 15 then (∑ i ∈ Finset.range 4096, cn (qn (n / 16 * 1024 + p) i) * Pn i l) * rn (n / 16 * 1024 + p)
  else ∑ i ∈ Finset.range ((n % 16 + 1) * 256), cn (qn (n / 16 * 1024 + p) i) * Pn i l

/-- THE INVARIANT, by induction on the point: the output's staging buffer after point `n` holds `accAfter` at `n`. -/
theorem outsAt_apply (c : Dev nD) (qn : ℕ → ℕ → ℕ) (cn : ℕ → ℝ) (Pn : ℕ → ℕ → ℝ) (rn : ℕ → ℝ)
    (hq : ∀ j : S4096x4096.Idx, (V c main_arg1 j : BitVec 32).toNat = qn (j 0).val (j 1).val)
    (hq16 : ∀ j : S4096x4096.Idx, (V c main_arg1 j : BitVec 32).toNat < 16)
    (hhi : ∀ j : S4096x4096.Idx, (V c main_v0 j : EReal) = ((Pn (j 0).val (j 1).val : ℝ) : EReal))
    (hlo : ∀ j : S4096x4096.Idx, (V c main_v3 j : EReal) = (0 : EReal))
    (hrn : ∀ j : S4096x1.Idx, (V c main_v4 j : EReal) = ((rn (j 0).val : ℝ) : EReal))
    (hcen : ∀ j : S1x16.Idx, (V c main_v5 j : EReal) = ((cn (j 1).val : ℝ) : EReal)) :
    ∀ (n : ℕ) (hn : n < cfg0.N) (y : S1024x4096.Idx),
      (outsAt0 V c n hn y : EReal) = ((accAfter cn qn Pn rn n (y 0).val (y 1).val : ℝ) : EReal) := by
  intro n
  induction n using Nat.strong_induction_on with
  | _ n ih =>
  intro hn y
  have hN : n < 64 := lt_of_lt_of_eq hn (show cfg0.N = 64 from N_0)
  by_cases h0 : n % 16 = 0
  · have h1 : ¬n % 16 = 15 := by omega
    rw [outsAt0_A V c ⟨n, hn⟩ h0 h1]
    refine (out0_A_apply c (grid0.coords ⟨n, hn⟩) (ms0_0 ⟨n, hn⟩) (hs0_0 ⟨n, hn⟩) (ms0_1 ⟨n, hn⟩) (hs0_1 ⟨n, hn⟩)
      (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩)
      ((hcond0_0 ⟨n, hn⟩).mpr h0) (fun h => h1 ((hcond0_1 ⟨n, hn⟩).mp h))
      (iblk0 V c 0 ⟨n, hn⟩) (iblk0 V c 1 ⟨n, hn⟩) (iblk0 V c 2 ⟨n, hn⟩) (iblk0 V c 3 ⟨n, hn⟩) (iblk0 V c 4 ⟨n, hn⟩)
      (fun p q => qn (n / 16 * 1024 + p) (n % 16 * 256 + q)) cn (fun q l => Pn (n % 16 * 256 + q) l)
      (codes_blk V c qn hq ⟨n, hn⟩) (codes_blk_lt V c hq16 ⟨n, hn⟩) (rot_blk V c Pn hhi ⟨n, hn⟩) (rem_blk V c hlo ⟨n, hn⟩)
      (cen_blk V c cn hcen ⟨n, hn⟩) y).trans ?_
    refine congrArg (fun x : ℝ => (x : EReal)) ?_
    unfold accAfter
    rw [if_neg h1, sum_step, h0, Nat.zero_mul, Finset.range_zero, Finset.sum_empty, zero_add]
  · by_cases h1 : n % 16 = 15
    · rw [outsAt0_C V c ⟨n, hn⟩ h0 h1]
      have hp : ¬(n - 1) % 16 = 15 := by omega
      have e1 : (n - 1) / 16 = n / 16 := by omega
      have e2 : (n - 1) % 16 + 1 = n % 16 := by omega
      refine (out0_C_apply c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩)
        (fun h => h0 ((hcond0_0 ⟨n, hn⟩).mp h)) ((hcond0_1 ⟨n, hn⟩).mpr h1)
        (iblk0 V c 0 ⟨n, hn⟩) (iblk0 V c 1 ⟨n, hn⟩) (iblk0 V c 2 ⟨n, hn⟩) (iblk0 V c 3 ⟨n, hn⟩) (iblk0 V c 4 ⟨n, hn⟩)
        (outsAt0 V c ((⟨n, hn⟩ : Fin cfg0.N).val - 1) (Nat.lt_of_le_of_lt (Nat.sub_le _ _) (⟨n, hn⟩ : Fin cfg0.N).isLt))
        (fun p q => qn (n / 16 * 1024 + p) (n % 16 * 256 + q)) cn (fun q l => Pn (n % 16 * 256 + q) l)
        (codes_blk V c qn hq ⟨n, hn⟩) (codes_blk_lt V c hq16 ⟨n, hn⟩) (rot_blk V c Pn hhi ⟨n, hn⟩) (rem_blk V c hlo ⟨n, hn⟩)
        (cen_blk V c cn hcen ⟨n, hn⟩) (fun p => rn (n / 16 * 1024 + p)) (norm_blk V c rn hrn ⟨n, hn⟩) y
        (accAfter cn qn Pn rn (n - 1) (y 0).val (y 1).val) (ih (n - 1) (by omega) _ y)).trans ?_
      refine congrArg (fun x : ℝ => (x : EReal)) ?_
      unfold accAfter
      rw [if_pos h1, if_neg hp, e1, e2, ← sum_step, h1]
    · rw [outsAt0_B V c ⟨n, hn⟩ h0 h1]
      have hp : ¬(n - 1) % 16 = 15 := by omega
      have e1 : (n - 1) / 16 = n / 16 := by omega
      have e2 : (n - 1) % 16 + 1 = n % 16 := by omega
      refine (out0_B_apply c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩)
        (fun h => h0 ((hcond0_0 ⟨n, hn⟩).mp h)) (fun h => h1 ((hcond0_1 ⟨n, hn⟩).mp h))
        (iblk0 V c 0 ⟨n, hn⟩) (iblk0 V c 1 ⟨n, hn⟩) (iblk0 V c 2 ⟨n, hn⟩) (iblk0 V c 3 ⟨n, hn⟩) (iblk0 V c 4 ⟨n, hn⟩)
        (outsAt0 V c ((⟨n, hn⟩ : Fin cfg0.N).val - 1) (Nat.lt_of_le_of_lt (Nat.sub_le _ _) (⟨n, hn⟩ : Fin cfg0.N).isLt))
        (fun p q => qn (n / 16 * 1024 + p) (n % 16 * 256 + q)) cn (fun q l => Pn (n % 16 * 256 + q) l)
        (codes_blk V c qn hq ⟨n, hn⟩) (codes_blk_lt V c hq16 ⟨n, hn⟩) (rot_blk V c Pn hhi ⟨n, hn⟩) (rem_blk V c hlo ⟨n, hn⟩)
        (cen_blk V c cn hcen ⟨n, hn⟩) y
        (accAfter cn qn Pn rn (n - 1) (y 0).val (y 1).val) (ih (n - 1) (by omega) _ y)).trans ?_
      refine congrArg (fun x : ℝ => (x : EReal)) ?_
      unfold accAfter
      rw [if_neg h1, if_neg hp, e1, e2, ← sum_step]

/-! ## From the blocks to the array -/

/-- The weight array, as contents of the kernel's result array. -/
abbrev Warr (cn : ℕ → ℝ) (qn : ℕ → ℕ → ℕ) (Pn : ℕ → ℕ → ℝ) (rn : ℕ → ℝ) : S4096x4096.Idx → Elt Ideal .f32 :=
  fun j => ((Wn cn qn Pn rn (j 0).val (j 1).val : ℝ) : EReal)

/-- After a tile's last step the output block holds the tile's rows of the weight array. -/
theorem last_apply (c : Dev nD) (qn : ℕ → ℕ → ℕ) (cn : ℕ → ℝ) (Pn : ℕ → ℕ → ℝ) (rn : ℕ → ℝ)
    (hq : ∀ j : S4096x4096.Idx, (V c main_arg1 j : BitVec 32).toNat = qn (j 0).val (j 1).val)
    (hq16 : ∀ j : S4096x4096.Idx, (V c main_arg1 j : BitVec 32).toNat < 16)
    (hhi : ∀ j : S4096x4096.Idx, (V c main_v0 j : EReal) = ((Pn (j 0).val (j 1).val : ℝ) : EReal))
    (hlo : ∀ j : S4096x4096.Idx, (V c main_v3 j : EReal) = (0 : EReal))
    (hrn : ∀ j : S4096x1.Idx, (V c main_v4 j : EReal) = ((rn (j 0).val : ℝ) : EReal))
    (hcen : ∀ j : S1x16.Idx, (V c main_v5 j : EReal) = ((cn (j 1).val : ℝ) : EReal))
    (t : Fin cfg0.N) (h15 : t.val % 16 = 15) (y : S1024x4096.Idx) :
    (outsAt0 V c t.val t.isLt y : EReal) = ((Wn cn qn Pn rn (t.val / 16 * 1024 + (y 0).val) (y 1).val : ℝ) : EReal) := by
  rw [outsAt_apply V c qn cn Pn rn hq hq16 hhi hlo hrn hcen t.val t.isLt y]
  unfold accAfter Wn
  rw [if_pos h15]

/-- WHAT A TILE'S LAST POINT WRITES BACK is its block of the weight array. -/
theorem flushed_eq (c : Dev nD) (qn : ℕ → ℕ → ℕ) (cn : ℕ → ℝ) (Pn : ℕ → ℕ → ℝ) (rn : ℕ → ℝ)
    (hq : ∀ j : S4096x4096.Idx, (V c main_arg1 j : BitVec 32).toNat = qn (j 0).val (j 1).val)
    (hq16 : ∀ j : S4096x4096.Idx, (V c main_arg1 j : BitVec 32).toNat < 16)
    (hhi : ∀ j : S4096x4096.Idx, (V c main_v0 j : EReal) = ((Pn (j 0).val (j 1).val : ℝ) : EReal))
    (hlo : ∀ j : S4096x4096.Idx, (V c main_v3 j : EReal) = (0 : EReal))
    (hrn : ∀ j : S4096x1.Idx, (V c main_v4 j : EReal) = ((rn (j 0).val : ℝ) : EReal))
    (hcen : ∀ j : S1x16.Idx, (V c main_v5 j : EReal) = ((cn (j 1).val : ℝ) : EReal))
    (t : Fin cfg0.N) (hf : (cfg0.win 5).flush t = true) :
    (dat0 (F := Ideal) V c).flushed 5 t = ((cfg0.win 5).blk t).view.read (Elt Ideal) (Warr cn qn Pn rn) := by
  have h15 : t.val % 16 = 15 := (flush0_5 t).mp hf
  obtain ⟨-, -, -, -, -, -, -, -, -, -, e0, e1⟩ := idx_facts t
  show (cfg0.win 5).cut (grid0.coords t) ((dat0 V c).after 5 t) = _
  rw [after0_5]
  funext y
  show (outsAt0 V c t.val t.isLt ((cfg0.win 5).xinj (grid0.coords t) y) : EReal)
    = ((Wn cn qn Pn rn (win0_5.index t (0 : Fin 2) * 1024 + 1 * (y 0).val) (win0_5.index t (1 : Fin 2) * 4096 + 1 * (y 1).val) : ℝ) : EReal)
  rw [e0, e1, Nat.one_mul, Nat.one_mul, Nat.zero_mul, Nat.zero_add]
  exact last_apply V c qn cn Pn rn hq hq16 hhi hlo hrn hcen t h15 _

/-- An index of the array is in point `t`'s block iff each coordinate is in the block's range on its axis. -/
theorem mem_blk (t : Fin cfg0.N) (i : S4096x4096.Idx) :
    i ∈ ((cfg0.win 5).blk t).view.set ↔ ∀ a : Fin 2, win0_5.index t a * S1024x4096.size a ≤ (i a).val ∧ (i a).val < win0_5.index t a * S1024x4096.size a + S1024x4096.size a := by
  show i ∈ ((View.whole main_v6).slice (win0_5.rect t)).set ↔ _
  rw [View.set_slice_whole, Rect.mem_set_unit]
  exact Iff.rfl

/-- Every index of the array lies in the block some tile's last point writes back: row `r` in tile `r / 1024`'s. -/
theorem cover (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 64 := N_0
  have ht : (i 0).val / 1024 * 16 + 15 < cfg0.N := by omega
  obtain ⟨-, -, -, -, -, -, -, -, -, -, e0, e1⟩ := idx_facts ⟨(i 0).val / 1024 * 16 + 15, ht⟩
  have v : (⟨(i 0).val / 1024 * 16 + 15, ht⟩ : Fin cfg0.N).val = (i 0).val / 1024 * 16 + 15 := rfl
  rw [v] at e0
  refine ⟨⟨(i 0).val / 1024 * 16 + 15, ht⟩, (flush0_5 _).mpr (by rw [v]; omega), ?_⟩
  rw [mem_blk]
  intro a
  match a with
  | ⟨0, _⟩ => show win0_5.index _ (0 : Fin 2) * 1024 ≤ (i 0).val ∧ (i 0).val < win0_5.index _ (0 : Fin 2) * 1024 + 1024; rw [e0]; omega
  | ⟨1, _⟩ => show win0_5.index _ (1 : Fin 2) * 4096 ≤ (i 1).val ∧ (i 1).val < win0_5.index _ (1 : Fin 2) * 4096 + 4096; rw [e1]; omega

/-- THE WEIGHT ARRAY after the first kernel, from what the region finds in its operand arrays: the codes, the rotation
    (its remainder array zero), the row norms as a column and the centroids as a row. -/
theorem final0 (c : Dev nD) (qn : ℕ → ℕ → ℕ) (cn : ℕ → ℝ) (Pn : ℕ → ℕ → ℝ) (rn : ℕ → ℝ)
    (hq : ∀ j : S4096x4096.Idx, (V c main_arg1 j : BitVec 32).toNat = qn (j 0).val (j 1).val)
    (hq16 : ∀ j : S4096x4096.Idx, (V c main_arg1 j : BitVec 32).toNat < 16)
    (hhi : ∀ j : S4096x4096.Idx, (V c main_v0 j : EReal) = ((Pn (j 0).val (j 1).val : ℝ) : EReal))
    (hlo : ∀ j : S4096x4096.Idx, (V c main_v3 j : EReal) = (0 : EReal))
    (hrn : ∀ j : S4096x1.Idx, (V c main_v4 j : EReal) = ((rn (j 0).val : ℝ) : EReal))
    (hcen : ∀ j : S1x16.Idx, (V c main_v5 j : EReal) = ((cn (j 1).val : ℝ) : EReal))
    (j : S4096x4096.Idx) :
    ((dat0 (F := Ideal) V c).arrAt 5 cfg0.N j : EReal) = ((Wn cn qn Pn rn (j 0).val (j 1).val : ℝ) : EReal) :=
  congrFun ((dat0 (F := Ideal) V c).arrAt_eq_of_cover 5 (Warr cn qn Pn rn)
    (fun t hf => flushed_eq V c qn cn Pn rn hq hq16 hhi hlo hrn hcen t hf) cover) j

end Cert.KernelIdeal.R0

end
-- ==== Proof.R1Body.lean ====
/-
  One grid point of the linear kernel, read at an index: a block of input rows times a block of weight rows over a
  block of the contracted axis, in three passes of which the two corrections meet zero remainders; the products are
  added to what the output block held, and at the last reduction step the offset row is added.
-/
import proofs.«415316_j46162308497811_3_alg».proof.Proof.Gen.KernelIdeal.Frame
import proofs.«415316_j46162308497811_3_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.R1

namespace Body

/-! ## The found pieces read back as the body's arithmetic, for every float instance -/

section Pieces
variable {F : FTy → Type} [FloatOps F]

/-- The zero offset of a whole-block access. -/
theorem hz : (![0, 0] : Fin 2 → Nat) = fun _ => 0 := funext fun a => by fin_cases a <;> rfl

/-- A middle step leaves one covering store: this step's three products added to the loaded block. -/
theorem out1_B_eq (c : Dev nD) (i : grid1.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S2048x1024 .f32) (h8 : a8.IsWhole) (hc0 : ¬cond1_0 i) (hc1 : ¬cond1_1 i)
    (x0 : Vec F S2048x1024 .bf16) (x1 : Vec F S2048x1024 .bf16) (x2 : Vec F S1024x1024 .bf16) (x3 : Vec F S1024x1024 .bf16) (x4 : Vec F S1x1024 .f32) (xo : Vec F S2048x1024 .f32) :
    out1_B_5 c i a3 h3 a4 h4 a5 h5 a6 h6 a7 h7 a8 h8 hc0 hc1 x0 x1 x2 x3 x4 xo = k1_pay2 xo x0 x1 x2 x3 := by
  unfold out1_B_5
  rw [View.read_writes_eq_canon _ _ _ (cover1_B_5 c i a3 h3 a4 h4 a5 h5 a6 h6 a7 h7 a8 h8 hc0 hc1 x0 x1 x2 x3 x4 xo)]
  unfold kernelRun1_B
  dsimp only
  sl_unfold_words
  rw [View.canon_unit_zero hz]
  simp only [View.readAt_eq_ld, h3.read_unread, h4.read_unread, h5.read_unread, h6.read_unread, h8.read_unread,
    View.ld_unit_zero (S := S2048x1024) hz, View.ld_unit_zero (S := S1024x1024) hz]

/-- The first step stores the zero block, loads it back, and leaves the products added to it. -/
theorem out1_A_eq (c : Dev nD) (i : grid1.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S2048x1024 .f32) (h8 : a8.IsWhole) (hc0 : cond1_0 i) (hc1 : ¬cond1_1 i)
    (x0 : Vec F S2048x1024 .bf16) (x1 : Vec F S2048x1024 .bf16) (x2 : Vec F S1024x1024 .bf16) (x3 : Vec F S1024x1024 .bf16) (x4 : Vec F S1x1024 .f32) :
    out1_A_5 c i a3 h3 a4 h4 a5 h5 a6 h6 a7 h7 a8 h8 hc0 hc1 x0 x1 x2 x3 x4 = k1_pay2 (k1_pay1 (F := F)) x0 x1 x2 x3 := by
  unfold out1_A_5
  rw [View.read_writes_eq_canon _ _ _ (cover1_A_5 c i a3 h3 a4 h4 a5 h5 a6 h6 a7 h7 a8 h8 hc0 hc1 x0 x1 x2 x3 x4)]
  unfold kernelRun1_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x1024) hz, View.ld_unit_zero (S := S1024x1024) hz]

/-- The last step stores the updated block, loads it back, and leaves it with the offset row added. -/
theorem out1_C_eq (c : Dev nD) (i : grid1.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S2048x1024 .f32) (h8 : a8.IsWhole) (hc0 : ¬cond1_0 i) (hc1 : cond1_1 i)
    (x0 : Vec F S2048x1024 .bf16) (x1 : Vec F S2048x1024 .bf16) (x2 : Vec F S1024x1024 .bf16) (x3 : Vec F S1024x1024 .bf16) (x4 : Vec F S1x1024 .f32) (xo : Vec F S2048x1024 .f32) :
    out1_C_5 c i a3 h3 a4 h4 a5 h5 a6 h6 a7 h7 a8 h8 hc0 hc1 x0 x1 x2 x3 x4 xo = k1_pay3 (k1_pay2 xo x0 x1 x2 x3) x4 := by
  unfold out1_C_5
  rw [View.read_writes_eq_canon _ _ _ (cover1_C_5 c i a3 h3 a4 h4 a5 h5 a6 h6 a7 h7 a8 h8 hc0 hc1 x0 x1 x2 x3 x4 xo)]
  unfold kernelRun1_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h7.read_unread, h8.read_unread,
    View.ld_unit_zero (S := S2048x1024) hz, View.ld_unit_zero (S := S1024x1024) hz, View.ld_unit_zero (S := S1x1024) hz]

end Pieces

/-! ## One pass of the product at the ideal values -/

/-- The left operand is read at the output's row … -/
theorem lhs_mm_0 (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- … and the contracted coordinate; … -/
theorem lhs_mm_1 (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q
/-- … the right operand at the output's COLUMN, as its row, … -/
theorem rhs_mm_0 (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- … and the contracted coordinate: both operands contract their second axis. -/
theorem rhs_mm_1 (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- One pass into the zero accumulator, read at `(p, o)`: row `p` of the left operand against row `o` of the right. -/
theorem mm_apply (l : FVec Ideal S2048x1024 .bf16) (r : FVec Ideal S1024x1024 .bf16) (p : Fin 2048) (o : Fin 1024) :
    matmul dot_S2048x1024_S1024x1024_S2048x1024_1_1_0_0_n_n none l r (constant (F := Ideal) S2048x1024 .f32 0x00000000#32) (ix2 p o)
      = ∑ k : Fin 1024, l (ix2 p k) * r (ix2 o k) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p o) ((contrEquiv1 dot_S2048x1024_S1024x1024_S2048x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S2048x1024_S1024x1024_S2048x1024_1_1_0_0_n_n.rhsIdx (ix2 p o) ((contrEquiv1 dot_S2048x1024_S1024x1024_S2048x1024_1_1_0_0_n_n 1024 rfl rfl).symm k) = ix2 o k := funext fun a => Fin.ext (by
    match a with
    | ⟨0, _⟩ => exact rhs_mm_0 _ _
    | ⟨1, _⟩ => exact (rhs_mm_1 _ _).trans hk)
  rw [el, er]

/-- A pass whose left rows are real and whose right rows are real is the real sum of products. -/
theorem mm_real (l : FVec Ideal S2048x1024 .bf16) (r : FVec Ideal S1024x1024 .bf16) (xa wa : ℕ → ℕ → ℝ)
    (hl : ∀ y : S2048x1024.Idx, l y = ((xa (y 0).val (y 1).val : ℝ) : EReal))
    (hr : ∀ y : S1024x1024.Idx, r y = ((wa (y 0).val (y 1).val : ℝ) : EReal)) (p : Fin 2048) (o : Fin 1024) :
    matmul dot_S2048x1024_S1024x1024_S2048x1024_1_1_0_0_n_n none l r (constant (F := Ideal) S2048x1024 .f32 0x00000000#32) (ix2 p o)
      = ((∑ k ∈ Finset.range 1024, xa p.val k * wa o.val k : ℝ) : EReal) := by
  rw [mm_apply]
  have e : ∀ k : Fin 1024, l (ix2 p k) * r (ix2 o k) = ((xa p.val k.val * wa o.val k.val : ℝ) : EReal) := fun k => by
    rw [hl, hr, ← EReal.coe_mul]
  rw [Finset.sum_congr rfl fun k _ => e k, Cert.Bridge.sum_fin_range 1024 fun k => ((xa p.val k * wa o.val k : ℝ) : EReal),
    Cert.Bridge.coe_sum]

/-- A pass whose left operand is zero is zero … -/
theorem mm_zero_left (l : FVec Ideal S2048x1024 .bf16) (r : FVec Ideal S1024x1024 .bf16)
    (hl : ∀ y : S2048x1024.Idx, l y = 0) (p : Fin 2048) (o : Fin 1024) :
    matmul dot_S2048x1024_S1024x1024_S2048x1024_1_1_0_0_n_n none l r (constant (F := Ideal) S2048x1024 .f32 0x00000000#32) (ix2 p o) = 0 := by
  rw [mm_apply]
  exact Finset.sum_eq_zero fun k _ => by rw [hl, zero_mul]

/-- … and so is one whose right operand is zero. -/
theorem mm_zero_right (l : FVec Ideal S2048x1024 .bf16) (r : FVec Ideal S1024x1024 .bf16)
    (hr : ∀ y : S1024x1024.Idx, r y = 0) (p : Fin 2048) (o : Fin 1024) :
    matmul dot_S2048x1024_S1024x1024_S2048x1024_1_1_0_0_n_n none l r (constant (F := Ideal) S2048x1024 .f32 0x00000000#32) (ix2 p o) = 0 := by
  rw [mm_apply]
  exact Finset.sum_eq_zero fun k _ => by rw [hr, mul_zero]

/-! ## The body's arithmetic at an index -/

/-- The zero block is zero everywhere. -/
theorem pay1_apply (j : S2048x1024.Idx) : k1_pay1 (F := Ideal) j = 0 := Ideal.ofBits_zero_f32

/-- One step's update at `(p, o)`: what the block held plus the real sum of products — the pass over the
    right operand's remainder and the pass over the left operand's remainder both add zero. -/
theorem pay2_apply (xo : Vec Ideal S2048x1024 .f32) (x0 x1 : Vec Ideal S2048x1024 .bf16) (x2 x3 : Vec Ideal S1024x1024 .bf16)
    (xa wa : ℕ → ℕ → ℝ)
    (hx : ∀ y : S2048x1024.Idx, x0 y = ((xa (y 0).val (y 1).val : ℝ) : EReal)) (hx0 : ∀ y : S2048x1024.Idx, x1 y = 0)
    (hw : ∀ y : S1024x1024.Idx, x2 y = ((wa (y 0).val (y 1).val : ℝ) : EReal)) (hw0 : ∀ y : S1024x1024.Idx, x3 y = 0)
    (p : Fin 2048) (o : Fin 1024) :
    k1_pay2 (F := Ideal) xo x0 x1 x2 x3 (ix2 p o)
      = xo (ix2 p o) + ((∑ k ∈ Finset.range 1024, xa p.val k * wa o.val k : ℝ) : EReal) := by
  unfold k1_pay2
  simp only [shapeCast_self]
  show xo (ix2 p o) + ((matmul dot_S2048x1024_S1024x1024_S2048x1024_1_1_0_0_n_n none x0 x2 (constant (F := Ideal) S2048x1024 .f32 0x00000000#32) (ix2 p o)
        + matmul dot_S2048x1024_S1024x1024_S2048x1024_1_1_0_0_n_n none x0 x3 (constant (F := Ideal) S2048x1024 .f32 0x00000000#32) (ix2 p o))
      + matmul dot_S2048x1024_S1024x1024_S2048x1024_1_1_0_0_n_n none x1 x2 (constant (F := Ideal) S2048x1024 .f32 0x00000000#32) (ix2 p o)) = _
  rw [mm_real x0 x2 xa wa hx hw, mm_zero_right x0 x3 hw0, mm_zero_left x1 x2 hx0, add_zero, add_zero]

/-- The last step's second store at `(p, o)`: the updated entry plus the offset of column `o`. -/
theorem pay3_apply (v : Vec Ideal S2048x1024 .f32) (x4 : Vec Ideal S1x1024 .f32) (p : Fin 2048) (o : Fin 1024) :
    k1_pay3 (F := Ideal) v x4 (ix2 p o) = v (ix2 p o) + x4 (ix2 (0 : Fin 1) o) := by
  unfold k1_pay3
  simp only [shapeCast_self]
  show v (ix2 p o) + broadcastTo S2048x1024 x4 broadcasts_S1x1024_S2048x1024 (ix2 p o) = _
  rw [broadcastTo_1b_ab_apply]

end Body

open Body

/-! ## The three control cases at an index -/

/-- FIRST REDUCTION STEP of an output tile: the block is reset and ends holding this step's products alone. -/
theorem out1_A_apply (c : Dev nD) (i : grid1.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S2048x1024 .f32) (h8 : a8.IsWhole) (hc0 : cond1_0 i) (hc1 : ¬cond1_1 i)
    (x0 : Vec Ideal S2048x1024 .bf16) (x1 : Vec Ideal S2048x1024 .bf16) (x2 : Vec Ideal S1024x1024 .bf16) (x3 : Vec Ideal S1024x1024 .bf16) (x4 : Vec Ideal S1x1024 .f32)
    (xa : ℕ → ℕ → ℝ) (wa : ℕ → ℕ → ℝ)
    (hx : ∀ y : S2048x1024.Idx, x0 y = ((xa (y 0).val (y 1).val : ℝ) : EReal)) (hx0 : ∀ y : S2048x1024.Idx, x1 y = 0)
    (hw : ∀ y : S1024x1024.Idx, x2 y = ((wa (y 0).val (y 1).val : ℝ) : EReal)) (hw0 : ∀ y : S1024x1024.Idx, x3 y = 0)
    (y : S2048x1024.Idx) :
    out1_A_5 (F := Ideal) c i a3 h3 a4 h4 a5 h5 a6 h6 a7 h7 a8 h8 hc0 hc1 x0 x1 x2 x3 x4 y
      = ((∑ k ∈ Finset.range 1024, xa (y 0).val k * wa (y 1).val k : ℝ) : EReal) := by
  obtain ⟨p, o, rfl⟩ : ∃ (p : Fin 2048) (o : Fin 1024), y = ix2 p o := ⟨y 0, y 1, eq_ix2 y⟩
  refine (congrFun (out1_A_eq (F := Ideal) c i a3 h3 a4 h4 a5 h5 a6 h6 a7 h7 a8 h8 hc0 hc1 x0 x1 x2 x3 x4) (ix2 p o)).trans ?_
  have e := pay2_apply (k1_pay1 (F := Ideal)) x0 x1 x2 x3 xa wa hx hx0 hw hw0 p o
  rw [pay1_apply, zero_add] at e
  exact e

/-- A MIDDLE STEP: this step's products added to what the block held. -/
theorem out1_B_apply (c : Dev nD) (i : grid1.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S2048x1024 .f32) (h8 : a8.IsWhole) (hc0 : ¬cond1_0 i) (hc1 : ¬cond1_1 i)
    (x0 : Vec Ideal S2048x1024 .bf16) (x1 : Vec Ideal S2048x1024 .bf16) (x2 : Vec Ideal S1024x1024 .bf16) (x3 : Vec Ideal S1024x1024 .bf16) (x4 : Vec Ideal S1x1024 .f32) (xo : Vec Ideal S2048x1024 .f32)
    (xa : ℕ → ℕ → ℝ) (wa : ℕ → ℕ → ℝ)
    (hx : ∀ y : S2048x1024.Idx, x0 y = ((xa (y 0).val (y 1).val : ℝ) : EReal)) (hx0 : ∀ y : S2048x1024.Idx, x1 y = 0)
    (hw : ∀ y : S1024x1024.Idx, x2 y = ((wa (y 0).val (y 1).val : ℝ) : EReal)) (hw0 : ∀ y : S1024x1024.Idx, x3 y = 0)
    (y : S2048x1024.Idx) (acc : ℝ) (hacc : xo y = ((acc : ℝ) : EReal)) :
    out1_B_5 (F := Ideal) c i a3 h3 a4 h4 a5 h5 a6 h6 a7 h7 a8 h8 hc0 hc1 x0 x1 x2 x3 x4 xo y
      = ((acc + ∑ k ∈ Finset.range 1024, xa (y 0).val k * wa (y 1).val k : ℝ) : EReal) := by
  obtain ⟨p, o, rfl⟩ : ∃ (p : Fin 2048) (o : Fin 1024), y = ix2 p o := ⟨y 0, y 1, eq_ix2 y⟩
  refine (congrFun (out1_B_eq (F := Ideal) c i a3 h3 a4 h4 a5 h5 a6 h6 a7 h7 a8 h8 hc0 hc1 x0 x1 x2 x3 x4 xo) (ix2 p o)).trans ?_
  have e := pay2_apply xo x0 x1 x2 x3 xa wa hx hx0 hw hw0 p o
  rw [hacc, ← EReal.coe_add] at e
  exact e

/-- THE LAST STEP: the completed sum plus the offset of the column. -/
theorem out1_C_apply (c : Dev nD) (i : grid1.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1x1024 .f32) (h7 : a7.IsWhole) (a8 : Memref sig .tc .vmem S2048x1024 .f32) (h8 : a8.IsWhole) (hc0 : ¬cond1_0 i) (hc1 : cond1_1 i)
    (x0 : Vec Ideal S2048x1024 .bf16) (x1 : Vec Ideal S2048x1024 .bf16) (x2 : Vec Ideal S1024x1024 .bf16) (x3 : Vec Ideal S1024x1024 .bf16) (x4 : Vec Ideal S1x1024 .f32) (xo : Vec Ideal S2048x1024 .f32)
    (xa : ℕ → ℕ → ℝ) (wa : ℕ → ℕ → ℝ)
    (hx : ∀ y : S2048x1024.Idx, x0 y = ((xa (y 0).val (y 1).val : ℝ) : EReal)) (hx0 : ∀ y : S2048x1024.Idx, x1 y = 0)
    (hw : ∀ y : S1024x1024.Idx, x2 y = ((wa (y 0).val (y 1).val : ℝ) : EReal)) (hw0 : ∀ y : S1024x1024.Idx, x3 y = 0)
    (ba : ℕ → ℝ) (hb : ∀ y : S1x1024.Idx, x4 y = ((ba (y 1).val : ℝ) : EReal))
    (y : S2048x1024.Idx) (acc : ℝ) (hacc : xo y = ((acc : ℝ) : EReal)) :
    out1_C_5 (F := Ideal) c i a3 h3 a4 h4 a5 h5 a6 h6 a7 h7 a8 h8 hc0 hc1 x0 x1 x2 x3 x4 xo y
      = (((acc + ∑ k ∈ Finset.range 1024, xa (y 0).val k * wa (y 1).val k) + ba (y 1).val : ℝ) : EReal) := by
  obtain ⟨p, o, rfl⟩ : ∃ (p : Fin 2048) (o : Fin 1024), y = ix2 p o := ⟨y 0, y 1, eq_ix2 y⟩
  refine (congrFun (out1_C_eq (F := Ideal) c i a3 h3 a4 h4 a5 h5 a6 h6 a7 h7 a8 h8 hc0 hc1 x0 x1 x2 x3 x4 xo) (ix2 p o)).trans ?_
  have e := pay3_apply (k1_pay2 (F := Ideal) xo x0 x1 x2 x3) x4 p o
  rw [pay2_apply xo x0 x1 x2 x3 xa wa hx hx0 hw hw0 p o, hacc, hb, ← EReal.coe_add, ← EReal.coe_add] at e
  exact e

end Cert.KernelIdeal.R1

end
-- ==== Proof.R1Value.lean ====
/-
  The linear kernel's result array.  Output tile `t / 4` (row tile `t / 16`, column tile `t / 4 % 4`), reduction step
  `t % 4`: after the step the block holds the partial sums over the first `(t % 4 + 1) · 1024` entries of the
  contracted axis, after the fourth the whole sum plus the offset; the sixteen tiles, each written back once, tile the
  array.
-/
import proofs.«415316_j46162308497811_3_alg».proof.Proof.R1Body

noncomputable section

open Idealize.ShloMosaic Idealize.ShloMosaic.TcCoe Idealize.SL.Sem Idealize.ShloMosaic.ValueIdx
open Idealize.ShloMosaic.Pipeline (Dat)
open Cert.KernelIdeal Cert.KernelIdeal.Gen
open Cert.Bridge

namespace Cert.KernelIdeal.R1

variable (V : (c : Dev nD) → (b : Ref sig .tc) → Buf (Elt Ideal) ((c : Thread nD τ).loc b))

/-- The block indices of the six windows at grid point `t`: row tile `t / 16`, column tile `t / 4 % 4`, reduction
    step `t % 4`. -/
theorem tile_idx : ∀ t : Fin cfg1.N,
    win1_0.index t (0 : Fin 2) = t.val / 16 ∧ win1_0.index t (1 : Fin 2) = t.val % 4
    ∧ win1_1.index t (0 : Fin 2) = t.val / 16 ∧ win1_1.index t (1 : Fin 2) = t.val % 4
    ∧ win1_2.index t (0 : Fin 2) = t.val / 4 % 4 ∧ win1_2.index t (1 : Fin 2) = t.val % 4
    ∧ win1_3.index t (0 : Fin 2) = t.val / 4 % 4 ∧ win1_3.index t (1 : Fin 2) = t.val % 4
    ∧ win1_4.index t (0 : Fin 2) = 0 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

/-- The input block of point `t`, at its literal type. -/
abbrev xhBlk (c : Dev nD) (t : Fin cfg1.N) : Vec Ideal S2048x1024 .bf16 := iblk1 (F := Ideal) V c 0 t
abbrev xlBlk (c : Dev nD) (t : Fin cfg1.N) : Vec Ideal S2048x1024 .bf16 := iblk1 (F := Ideal) V c 1 t
abbrev whBlk (c : Dev nD) (t : Fin cfg1.N) : Vec Ideal S1024x1024 .bf16 := iblk1 (F := Ideal) V c 2 t
abbrev wlBlk (c : Dev nD) (t : Fin cfg1.N) : Vec Ideal S1024x1024 .bf16 := iblk1 (F := Ideal) V c 3 t
abbrev bBlk (c : Dev nD) (t : Fin cfg1.N) : Vec Ideal S1x1024 .f32 := iblk1 (F := Ideal) V c 4 t

/-- The input block reads the input array at row `(t / 16) · 2048 + p`, column `(t % 4) · 1024 + k`. -/
theorem xhBlk_apply (c : Dev nD) (xn : ℕ → ℕ → ℝ)
    (hxh : ∀ j : S8192x4096.Idx, (V c main_v12 j : EReal) = ((xn (j 0).val (j 1).val : ℝ) : EReal))
    (t : Fin cfg1.N) (y : S2048x1024.Idx) :
    xhBlk V c t y = ((xn (t.val / 16 * 2048 + (y 0).val) (t.val % 4 * 1024 + (y 1).val) : ℝ) : EReal) := by
  obtain ⟨e0, e1, -⟩ := tile_idx t
  show V c main_v12 (((cfg1.win 0).blk t).view.emb y) = _
  have c0 : ((((cfg1.win 0).blk t).view.emb y) 0).val = t.val / 16 * 2048 + (y 0).val := by
    show win1_0.index t (0 : Fin 2) * 2048 + 1 * (y 0).val = _
    rw [e0]; omega
  have c1 : ((((cfg1.win 0).blk t).view.emb y) 1).val = t.val % 4 * 1024 + (y 1).val := by
    show win1_0.index t (1 : Fin 2) * 1024 + 1 * (y 1).val = _
    rw [e1]; omega
  rw [hxh, c0, c1]

/-- The remainder block of the input reads the remainder array, which is zero. -/
theorem xlBlk_apply (c : Dev nD)
    (hxl : ∀ j : S8192x4096.Idx, (V c main_v15 j : EReal) = (0 : EReal))
    (t : Fin cfg1.N) (y : S2048x1024.Idx) : xlBlk V c t y = 0 := by
  show V c main_v15 (((cfg1.win 1).blk t).view.emb y) = _
  rw [hxl]

/-- The weight block reads the weight array at row `(t / 4 % 4) · 1024 + q`, column `(t % 4) · 1024 + k`. -/
theorem whBlk_apply (c : Dev nD) (Wr : ℕ → ℕ → ℝ)
    (hwh : ∀ j : S4096x4096.Idx, (V c main_v7 j : EReal) = ((Wr (j 0).val (j 1).val : ℝ) : EReal))
    (t : Fin cfg1.N) (y : S1024x1024.Idx) :
    whBlk V c t y = ((Wr (t.val / 4 % 4 * 1024 + (y 0).val) (t.val % 4 * 1024 + (y 1).val) : ℝ) : EReal) := by
  obtain ⟨-, -, -, -, e0, e1, -⟩ := tile_idx t
  show V c main_v7 (((cfg1.win 2).blk t).view.emb y) = _
  have c0 : ((((cfg1.win 2).blk t).view.emb y) 0).val = t.val / 4 % 4 * 1024 + (y 0).val := by
    show win1_2.index t (0 : Fin 2) * 1024 + 1 * (y 0).val = _
    rw [e0]; omega
  have c1 : ((((cfg1.win 2).blk t).view.emb y) 1).val = t.val % 4 * 1024 + (y 1).val := by
    show win1_2.index t (1 : Fin 2) * 1024 + 1 * (y 1).val = _
    rw [e1]; omega
  rw [hwh, c0, c1]

/-- The remainder block of the weight reads the remainder array, which is zero. -/
theorem wlBlk_apply (c : Dev nD)
    (hwl : ∀ j : S4096x4096.Idx, (V c main_v10 j : EReal) = (0 : EReal))
    (t : Fin cfg1.N) (y : S1024x1024.Idx) : wlBlk V c t y = 0 := by
  show V c main_v10 (((cfg1.win 3).blk t).view.emb y) = _
  rw [hwl]

/-- The offset block reads the offset row at column `(t / 4 % 4) · 1024 + q`. -/
theorem bBlk_apply (c : Dev nD) (bn : ℕ → ℝ)
    (hb : ∀ j : S1x4096.Idx, (V c main_v16 j : EReal) = ((bn (j 1).val : ℝ) : EReal))
    (t : Fin cfg1.N) (y : S1x1024.Idx) :
    bBlk V c t y = ((bn (t.val / 4 % 4 * 1024 + (y 1).val) : ℝ) : EReal) := by
  obtain ⟨-, -, -, -, -, -, -, -, -, e1, -⟩ := tile_idx t
  show V c main_v16 (((cfg1.win 4).blk t).view.emb y) = _
  have c1 : ((((cfg1.win 4).blk t).view.emb y) 1).val = t.val / 4 % 4 * 1024 + (y 1).val := by
    show win1_4.index t (1 : Fin 2) * 1024 + 1 * (y 1).val = _
    rw [e1]; omega
  rw [hb, c1]

/-- A sum over the first `k + 1` blocks of 1024 is the sum over the first `k` blocks plus the sum over block `k`. -/
theorem sum_blocks_succ (f : ℕ → ℝ) (k : ℕ) :
    ∑ i ∈ Finset.range ((k + 1) * 1024), f i
      = ∑ i ∈ Finset.range (k * 1024), f i + ∑ q ∈ Finset.range 1024, f (k * 1024 + q) := by
  rw [Nat.add_mul, Nat.one_mul, Finset.sum_range_add]

/-- FIRST STEP of a tile (`n % 4 = 0`): the block holds the products over the first 1024 entries of the contracted axis. -/
theorem step_first (c : Dev nD) (xn : ℕ → ℕ → ℝ) (Wr : ℕ → ℕ → ℝ)
    (hxh : ∀ j : S8192x4096.Idx, (V c main_v12 j : EReal) = ((xn (j 0).val (j 1).val : ℝ) : EReal))
    (hxl : ∀ j : S8192x4096.Idx, (V c main_v15 j : EReal) = (0 : EReal))
    (hwh : ∀ j : S4096x4096.Idx, (V c main_v7 j : EReal) = ((Wr (j 0).val (j 1).val : ℝ) : EReal))
    (hwl : ∀ j : S4096x4096.Idx, (V c main_v10 j : EReal) = (0 : EReal))
    (n : ℕ) (hn : n < cfg1.N) (h0 : n % 4 = 0) (y : S2048x1024.Idx) :
    (outsAt1 (F := Ideal) V c n hn y : EReal)
      = ((∑ k ∈ Finset.range 1024, xn (n / 16 * 2048 + (y 0).val) (n % 4 * 1024 + k)
          * Wr (n / 4 % 4 * 1024 + (y 1).val) (n % 4 * 1024 + k) : ℝ) : EReal) := by
  have h1 : ¬n % 4 = 3 := by omega
  rw [outsAt1_A V c ⟨n, hn⟩ h0 h1]
  exact out1_A_apply c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩)
    ((hcond1_0 ⟨n, hn⟩).mpr h0) (fun h => h1 ((hcond1_1 ⟨n, hn⟩).mp h))
    (xhBlk V c ⟨n, hn⟩) (xlBlk V c ⟨n, hn⟩) (whBlk V c ⟨n, hn⟩) (wlBlk V c ⟨n, hn⟩) (bBlk V c ⟨n, hn⟩)
    (fun p k => xn (n / 16 * 2048 + p) (n % 4 * 1024 + k)) (fun q k => Wr (n / 4 % 4 * 1024 + q) (n % 4 * 1024 + k))
    (xhBlk_apply V c xn hxh ⟨n, hn⟩) (xlBlk_apply V c hxl ⟨n, hn⟩) (whBlk_apply V c Wr hwh ⟨n, hn⟩) (wlBlk_apply V c hwl ⟨n, hn⟩) y

/-- A MIDDLE STEP (`(n + 1) % 4` neither 0 nor 3): this step's 1024 products are added to what the block held. -/
theorem step_mid (c : Dev nD) (xn : ℕ → ℕ → ℝ) (Wr : ℕ → ℕ → ℝ)
    (hxh : ∀ j : S8192x4096.Idx, (V c main_v12 j : EReal) = ((xn (j 0).val (j 1).val : ℝ) : EReal))
    (hxl : ∀ j : S8192x4096.Idx, (V c main_v15 j : EReal) = (0 : EReal))
    (hwh : ∀ j : S4096x4096.Idx, (V c main_v7 j : EReal) = ((Wr (j 0).val (j 1).val : ℝ) : EReal))
    (hwl : ∀ j : S4096x4096.Idx, (V c main_v10 j : EReal) = (0 : EReal))
    (n : ℕ) (hn : n + 1 < cfg1.N) (h0 : ¬(n + 1) % 4 = 0) (h1 : ¬(n + 1) % 4 = 3) (y : S2048x1024.Idx) (acc : ℝ)
    (hacc : (outsAt1 (F := Ideal) V c n (Nat.lt_of_succ_lt hn) y : EReal) = ((acc : ℝ) : EReal)) :
    (outsAt1 (F := Ideal) V c (n + 1) hn y : EReal)
      = ((acc + ∑ k ∈ Finset.range 1024, xn ((n + 1) / 16 * 2048 + (y 0).val) ((n + 1) % 4 * 1024 + k)
          * Wr ((n + 1) / 4 % 4 * 1024 + (y 1).val) ((n + 1) % 4 * 1024 + k) : ℝ) : EReal) := by
  rw [outsAt1_B V c ⟨n + 1, hn⟩ h0 h1]
  exact out1_B_apply c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩)
    (fun h => h0 ((hcond1_0 ⟨n + 1, hn⟩).mp h)) (fun h => h1 ((hcond1_1 ⟨n + 1, hn⟩).mp h))
    (xhBlk V c ⟨n + 1, hn⟩) (xlBlk V c ⟨n + 1, hn⟩) (whBlk V c ⟨n + 1, hn⟩) (wlBlk V c ⟨n + 1, hn⟩) (bBlk V c ⟨n + 1, hn⟩)
    (outsAt1 (F := Ideal) V c n (Nat.lt_of_succ_lt hn))
    (fun p k => xn ((n + 1) / 16 * 2048 + p) ((n + 1) % 4 * 1024 + k)) (fun q k => Wr ((n + 1) / 4 % 4 * 1024 + q) ((n + 1) % 4 * 1024 + k))
    (xhBlk_apply V c xn hxh ⟨n + 1, hn⟩) (xlBlk_apply V c hxl ⟨n + 1, hn⟩) (whBlk_apply V c Wr hwh ⟨n + 1, hn⟩) (wlBlk_apply V c hwl ⟨n + 1, hn⟩) y acc hacc

/-- THE LAST STEP of a tile (`(n + 1) % 4 = 3`): the last 1024 products are added, then the offset of the column. -/
theorem step_last (c : Dev nD) (xn : ℕ → ℕ → ℝ) (Wr : ℕ → ℕ → ℝ)
    (hxh : ∀ j : S8192x4096.Idx, (V c main_v12 j : EReal) = ((xn (j 0).val (j 1).val : ℝ) : EReal))
    (hxl : ∀ j : S8192x4096.Idx, (V c main_v15 j : EReal) = (0 : EReal))
    (hwh : ∀ j : S4096x4096.Idx, (V c main_v7 j : EReal) = ((Wr (j 0).val (j 1).val : ℝ) : EReal))
    (hwl : ∀ j : S4096x4096.Idx, (V c main_v10 j : EReal) = (0 : EReal)) (bn : ℕ → ℝ)
    (hb : ∀ j : S1x4096.Idx, (V c main_v16 j : EReal) = ((bn (j 1).val : ℝ) : EReal))
    (n : ℕ) (hn : n + 1 < cfg1.N) (h1 : (n + 1) % 4 = 3) (y : S2048x1024.Idx) (acc : ℝ)
    (hacc : (outsAt1 (F := Ideal) V c n (Nat.lt_of_succ_lt hn) y : EReal) = ((acc : ℝ) : EReal)) :
    (outsAt1 (F := Ideal) V c (n + 1) hn y : EReal)
      = (((acc + ∑ k ∈ Finset.range 1024, xn ((n + 1) / 16 * 2048 + (y 0).val) ((n + 1) % 4 * 1024 + k)
          * Wr ((n + 1) / 4 % 4 * 1024 + (y 1).val) ((n + 1) % 4 * 1024 + k))
          + bn ((n + 1) / 4 % 4 * 1024 + (y 1).val) : ℝ) : EReal) := by
  have h0 : ¬(n + 1) % 4 = 0 := by omega
  rw [outsAt1_C V c ⟨n + 1, hn⟩ h0 h1]
  exact out1_C_apply c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩)
    (fun h => h0 ((hcond1_0 ⟨n + 1, hn⟩).mp h)) ((hcond1_1 ⟨n + 1, hn⟩).mpr h1)
    (xhBlk V c ⟨n + 1, hn⟩) (xlBlk V c ⟨n + 1, hn⟩) (whBlk V c ⟨n + 1, hn⟩) (wlBlk V c ⟨n + 1, hn⟩) (bBlk V c ⟨n + 1, hn⟩)
    (outsAt1 (F := Ideal) V c n (Nat.lt_of_succ_lt hn))
    (fun p k => xn ((n + 1) / 16 * 2048 + p) ((n + 1) % 4 * 1024 + k)) (fun q k => Wr ((n + 1) / 4 % 4 * 1024 + q) ((n + 1) % 4 * 1024 + k))
    (xhBlk_apply V c xn hxh ⟨n + 1, hn⟩) (xlBlk_apply V c hxl ⟨n + 1, hn⟩) (whBlk_apply V c Wr hwh ⟨n + 1, hn⟩) (wlBlk_apply V c hwl ⟨n + 1, hn⟩)
    (fun q => bn ((n + 1) / 4 % 4 * 1024 + q)) (bBlk_apply V c bn hb ⟨n + 1, hn⟩) y acc hacc

/-- THE INVARIANT. After grid point `n` the output block holds, at `(p, q)`, the partial sum of row
    `(n / 16) · 2048 + p` of the input against row `(n / 4 % 4) · 1024 + q` of the weight over the first
    `(n % 4 + 1) · 1024` entries of the contracted axis; after the fourth step of a tile, the whole sum plus the
    offset.  By induction on the point: within a tile the row and column tiles do not move and the step grows by one. -/
theorem acc_inv (c : Dev nD) (xn : ℕ → ℕ → ℝ) (Wr : ℕ → ℕ → ℝ) (bn : ℕ → ℝ)
    (hxh : ∀ j : S8192x4096.Idx, (V c main_v12 j : EReal) = ((xn (j 0).val (j 1).val : ℝ) : EReal))
    (hxl : ∀ j : S8192x4096.Idx, (V c main_v15 j : EReal) = (0 : EReal))
    (hwh : ∀ j : S4096x4096.Idx, (V c main_v7 j : EReal) = ((Wr (j 0).val (j 1).val : ℝ) : EReal))
    (hwl : ∀ j : S4096x4096.Idx, (V c main_v10 j : EReal) = (0 : EReal))
    (hb : ∀ j : S1x4096.Idx, (V c main_v16 j : EReal) = ((bn (j 1).val : ℝ) : EReal)) :
    ∀ (n : ℕ) (hn : n < cfg1.N) (y : S2048x1024.Idx),
      (outsAt1 (F := Ideal) V c n hn y : EReal)
        = (((if n % 4 = 3 then
              (∑ i ∈ Finset.range 4096, xn (n / 16 * 2048 + (y 0).val) i * Wr (n / 4 % 4 * 1024 + (y 1).val) i)
                + bn (n / 4 % 4 * 1024 + (y 1).val)
            else ∑ i ∈ Finset.range ((n % 4 + 1) * 1024),
              xn (n / 16 * 2048 + (y 0).val) i * Wr (n / 4 % 4 * 1024 + (y 1).val) i) : ℝ) : EReal) := by
  intro n
  induction n with
  | zero =>
    intro hn y
    refine (step_first V c xn Wr hxh hxl hwh hwl 0 hn rfl y).trans ?_
    rw [if_neg (by omega)]
    simp only [Nat.zero_mod, Nat.zero_mul, Nat.zero_add, Nat.one_mul]
  | succ m ih =>
    intro hn y
    by_cases h0 : (m + 1) % 4 = 0
    · refine (step_first V c xn Wr hxh hxl hwh hwl (m + 1) hn h0 y).trans ?_
      rw [if_neg (by omega), h0]
      simp only [Nat.zero_mul, Nat.zero_add, Nat.one_mul]
    · have ih' := ih (Nat.lt_of_succ_lt hn) y
      rw [if_neg (by omega)] at ih'
      have e1 : m / 16 = (m + 1) / 16 := by omega
      have e2 : m / 4 % 4 = (m + 1) / 4 % 4 := by omega
      have e3 : m % 4 + 1 = (m + 1) % 4 := by omega
      rw [e1, e2, e3] at ih'
      by_cases h1 : (m + 1) % 4 = 3
      · refine (step_last V c xn Wr hxh hxl hwh hwl bn hb m hn h1 y _ ih').trans ?_
        rw [if_pos h1, h1, show (4096 : ℕ) = (3 + 1) * 1024 from rfl, sum_blocks_succ _ 3]
      · refine (step_mid V c xn Wr hxh hxl hwh hwl m hn h0 h1 y _ ih').trans ?_
        rw [if_neg h1, sum_blocks_succ _ ((m + 1) % 4)]

/-- What the output array ends holding: the affine layer's value at every index. -/
abbrev Yarr (xn : ℕ → ℕ → ℝ) (Wr : ℕ → ℕ → ℝ) (bn : ℕ → ℝ) : Vec Ideal S8192x4096 .f32 :=
  fun j => ((Yn xn Wr bn (j 0).val (j 1).val : ℝ) : EReal)

/-- WHAT A TILE'S LAST POINT WRITES BACK is that tile of the layer's value. -/
theorem flushed_eq (c : Dev nD) (xn : ℕ → ℕ → ℝ) (Wr : ℕ → ℕ → ℝ) (bn : ℕ → ℝ)
    (hxh : ∀ j : S8192x4096.Idx, (V c main_v12 j : EReal) = ((xn (j 0).val (j 1).val : ℝ) : EReal))
    (hxl : ∀ j : S8192x4096.Idx, (V c main_v15 j : EReal) = (0 : EReal))
    (hwh : ∀ j : S4096x4096.Idx, (V c main_v7 j : EReal) = ((Wr (j 0).val (j 1).val : ℝ) : EReal))
    (hwl : ∀ j : S4096x4096.Idx, (V c main_v10 j : EReal) = (0 : EReal))
    (hb : ∀ j : S1x4096.Idx, (V c main_v16 j : EReal) = ((bn (j 1).val : ℝ) : EReal))
    (t : Fin cfg1.N) (hf : (cfg1.win 5).flush t = true) :
    (dat1 (F := Ideal) V c).flushed 5 t = ((cfg1.win 5).blk t).view.read (Elt Ideal) (Yarr xn Wr bn) := by
  have h3 : t.val % 4 = 3 := (flush1_5 t).mp hf
  obtain ⟨-, -, -, -, -, -, -, -, -, -, e0, e1⟩ := tile_idx t
  show (cfg1.win 5).cut (grid1.coords t) ((dat1 (F := Ideal) V c).after 5 t) = _
  rw [after1_5]
  funext y
  rw [View.read_apply]
  have c0 : ((((cfg1.win 5).blk t).view.emb y) 0).val = t.val / 16 * 2048 + (y 0).val := by
    show win1_5.index t (0 : Fin 2) * 2048 + 1 * (y 0).val = _
    rw [e0]; omega
  have c1 : ((((cfg1.win 5).blk t).view.emb y) 1).val = t.val / 4 % 4 * 1024 + (y 1).val := by
    show win1_5.index t (1 : Fin 2) * 1024 + 1 * (y 1).val = _
    rw [e1]; omega
  show (outsAt1 (F := Ideal) V c t.val t.isLt y : EReal) = ((Yn xn Wr bn _ _ : ℝ) : EReal)
  rw [acc_inv V c xn Wr bn hxh hxl hwh hwl hb t.val t.isLt y, if_pos h3, c0, c1]
  rfl

/-- An index of the array is in the tile of point `t` iff each coordinate is in the tile's range on its axis. -/
theorem mem_tile (t : Fin cfg1.N) (i : S8192x4096.Idx) :
    i ∈ ((cfg1.win 5).blk t).view.set ↔ ∀ a : Fin 2, win1_5.index t a * S2048x1024.size a ≤ (i a).val ∧ (i a).val < win1_5.index t a * S2048x1024.size a + S2048x1024.size a := by
  show i ∈ ((View.whole main_v17).slice (win1_5.rect t)).set ↔ _
  rw [View.set_slice_whole, Rect.mem_set_unit]
  exact Iff.rfl

/-- THE COVER: index `(r, o)` lies in the tile written back by the last step of row tile `r / 2048`, column tile `o / 1024`. -/
theorem covered (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 64 := N_1
  have ht : (i 0).val / 2048 * 16 + (i 1).val / 1024 * 4 + 3 < cfg1.N := by rw [hN]; omega
  refine ⟨⟨(i 0).val / 2048 * 16 + (i 1).val / 1024 * 4 + 3, ht⟩, (flush1_5 _).mpr (by dsimp only; omega), ?_⟩
  obtain ⟨-, -, -, -, -, -, -, -, -, -, e0, e1⟩ := tile_idx ⟨(i 0).val / 2048 * 16 + (i 1).val / 1024 * 4 + 3, ht⟩
  dsimp only at e0 e1
  rw [mem_tile]
  intro a
  match a with
  | ⟨0, _⟩ =>
    show win1_5.index _ (0 : Fin 2) * 2048 ≤ (i 0).val ∧ (i 0).val < win1_5.index _ (0 : Fin 2) * 2048 + 2048
    rw [e0]; omega
  | ⟨1, _⟩ =>
    show win1_5.index _ (1 : Fin 2) * 1024 ≤ (i 1).val ∧ (i 1).val < win1_5.index _ (1 : Fin 2) * 1024 + 1024
    rw [e1]; omega

/-- THE OUTPUT ARRAY after the second kernel, from what the region finds in its operand arrays: the flattened input and
    the weight (their remainder arrays zero) and the offsets as a row. -/
theorem final1 (c : Dev nD) (xn : ℕ → ℕ → ℝ) (Wr : ℕ → ℕ → ℝ) (bn : ℕ → ℝ)
    (hxh : ∀ j : S8192x4096.Idx, (V c main_v12 j : EReal) = ((xn (j 0).val (j 1).val : ℝ) : EReal))
    (hxl : ∀ j : S8192x4096.Idx, (V c main_v15 j : EReal) = (0 : EReal))
    (hwh : ∀ j : S4096x4096.Idx, (V c main_v7 j : EReal) = ((Wr (j 0).val (j 1).val : ℝ) : EReal))
    (hwl : ∀ j : S4096x4096.Idx, (V c main_v10 j : EReal) = (0 : EReal))
    (hb : ∀ j : S1x4096.Idx, (V c main_v16 j : EReal) = ((bn (j 1).val : ℝ) : EReal))
    (j : S8192x4096.Idx) :
    ((dat1 (F := Ideal) V c).arrAt 5 cfg1.N j : EReal) = ((Yn xn Wr bn (j 0).val (j 1).val : ℝ) : EReal) :=
  congrFun ((dat1 (F := Ideal) V c).arrAt_eq_of_cover 5 (Yarr xn Wr bn)
    (fun t hf => flushed_eq V c xn Wr bn hxh hxl hwh hwl hb t hf) covered) j

end Cert.KernelIdeal.R1

end
-- ==== Proof.KernelValue.lean ====
/-
  The kernel program's result, from its arguments: the first kernel leaves the weight `W`; the host splits it (the
  remainder is `W − W = 0`, every entry of `W` being real) and flattens the input; the second kernel leaves
  `x · Wᵀ + β` over the flattened rows; the last reshape restores the batch axes.
-/
import proofs.«415316_j46162308497811_3_alg».proof.Proof.KHost
import proofs.«415316_j46162308497811_3_alg».proof.Proof.R0Value
import proofs.«415316_j46162308497811_3_alg».proof.Proof.R1Value

noncomputable section

open Idealize.ShloMosaic Idealize.ShloMosaic.TcCoe Idealize.SL.Sem Idealize.ShloMosaic.ValueIdx
open Idealize.ShloMosaic.Pipeline (Dat)
open Cert.KernelIdeal Cert.KernelIdeal.Gen
open Cert.Bridge

namespace Cert.KernelIdeal.KValue

variable (m : (ℓ : Loc nD τ sig) → Buf (Elt Ideal) ℓ) (ρ : Dev nD → PrngReg)

/-- The weight array the first kernel leaves is the specified weight. -/
theorem weight (c : Dev nD) (hd : Dom (KHost.aX m c) (KHost.aQ m c) (KHost.aC m c) (KHost.aP m c) (KHost.aR m c) (KHost.aB m c)) (j : S4096x4096.Idx) :
    KHost.wArr m ρ c j
      = ((Wspec (KHost.aQ m c) (KHost.aC m c) (KHost.aP m c) (KHost.aR m c) (j 0).val (j 1).val : ℝ) : EReal) :=
  R0.final0 (V1 m ρ) c (qn (KHost.aQ m c)) (cn (KHost.aC m c)) (Pn (KHost.aP m c)) (vn (KHost.aR m c))
    (fun j => by rw [KHost.V1_arg1]; rfl)
    (fun j => by rw [KHost.V1_arg1]; exact hd.idx_lt _)
    (fun j => by rw [KHost.V1_v0]; exact (hd.Pi_real _).symm)
    (fun j => by rw [KHost.V1_v3, ← hd.Pi_real, ← EReal.coe_sub, sub_self, EReal.coe_zero])
    (fun j => by rw [KHost.V1_v4]; exact (hd.rn_real _).symm)
    (fun j => by rw [KHost.V1_v5]; exact (hd.cen_real _).symm)
    j

/-- THE RESULT BUFFER of the kernel program is the specified result. -/
theorem result (c : Dev nD) (hd : Dom (KHost.aX m c) (KHost.aQ m c) (KHost.aC m c) (KHost.aP m c) (KHost.aR m c) (KHost.aB m c)) :
    (W5 m ρ c (Proc.devRef .tc main_v18) : FVec Ideal SX .f32) = Out (KHost.aX m c) (KHost.aQ m c) (KHost.aC m c) (KHost.aP m c) (KHost.aR m c) (KHost.aB m c) := by
  funext j
  have h0 : (j 0).val < 4 := (j 0).isLt
  have h1 : (j 1).val < 2048 := (j 1).isLt
  have h2 : (j 2).val < 4096 := (j 2).isLt
  have e0 : ((j 0).val * 2048 + (j 1).val) % 8192 = (j 0).val * 2048 + (j 1).val := Nat.mod_eq_of_lt (by omega)
  have e1 : ((j 0).val * 2048 + (j 1).val) / 2048 = (j 0).val := by omega
  have e2 : ((j 0).val * 2048 + (j 1).val) % 2048 = (j 1).val := by omega
  have e3 : (j 2).val % 4096 = (j 2).val := Nat.mod_eq_of_lt h2
  refine (KHost.W5_v18 m ρ c j).trans ?_
  refine (R1.final1 (V3 m ρ) c (x2n (KHost.aX m c))
    (Wspec (KHost.aQ m c) (KHost.aC m c) (KHost.aP m c) (KHost.aR m c)) (vn (KHost.aB m c))
    (fun j => by rw [KHost.V3_v12]; exact (hd.x_real _).symm)
    (fun j => by rw [KHost.V3_v15, ← hd.x_real, ← EReal.coe_sub, sub_self, EReal.coe_zero])
    (fun j => by rw [KHost.V3_v7]; exact weight m ρ c hd j)
    (fun j => by rw [KHost.V3_v10, weight m ρ c hd j, ← EReal.coe_sub, sub_self, EReal.coe_zero])
    (fun j => by rw [KHost.V3_v16]; exact (hd.bias_real _).symm) _).trans ?_
  show ((Yn _ _ _ (((j 0).val * 2048 + (j 1).val) % 8192) ((j 2).val % 4096) : ℝ) : EReal) = _
  rw [e0, e3]
  unfold Out Yn x2n
  rw [e1, e2]

end Cert.KernelIdeal.KValue

end
-- ==== Proof.RefValue.lean ====
/-
  The reference, read at an index: on the domain its result array is the specified one.

  The codes are below sixteen, so the index normalisation (add sixteen to a negative code) leaves them alone and the
  clamp of the gather does nothing: the gathered entry `(o, i)` is the centroid `c (q o i)`. The first product and
  the rescaling by the row norm then give the specified weight `W o n`, and the second product and the offset give
  the specified result; every entry being real, the sums of extended reals are the real sums.
-/
import proofs.«415316_j46162308497811_3_alg».proof.Proof.Gen.ReferenceIdeal.Read
import proofs.«415316_j46162308497811_3_alg».proof.Proof.Spec

noncomputable section

open Idealize.ShloMosaic Idealize.ShloMosaic.ValueIdx

namespace Cert.Bridge

open Cert.ReferenceIdeal Cert.ReferenceIdeal.Read

/-- A 32-bit word below sixteen, read as a signed integer, is its unsigned value. -/
private theorem toInt_of_lt16 (w : BitVec 32) (h : w.toNat < 16) : w.toInt = (w.toNat : ℤ) :=
  BitVec.toInt_eq_toNat_of_lt (by omega)

/-- Such a word is not negative: the signed comparison with zero answers no. -/
private theorem slt_zero_of_lt16 (w : BitVec 32) (h : w.toNat < 16) : IntOp.cmpi .slt w 0#32 = 0#1 := by
  have hs : w.slt 0#32 = false := by
    rw [Bool.eq_false_iff]
    intro hs
    rw [BitVec.slt_iff_toInt_lt, toInt_of_lt16 w h, BitVec.toInt_zero] at hs
    omega
  show BitVec.ofBool (w.slt 0#32) = 0#1
  rw [hs]
  rfl

/-- The clamp of the gather leaves such a word alone. -/
private theorem clamp_of_lt16 (w : BitVec 32) (h : w.toNat < 16) : min w.toInt.toNat (16 - 1) = w.toNat := by
  rw [toInt_of_lt16 w h, Int.toNat_natCast]
  omega

/-- The normalised code is the code itself where every code is below sixteen. -/
private theorem v4_eq (idx : IVec SQ 32) (hq : ∀ i, (idx i).toNat < 16) (i : S4096x4096.Idx) :
    val_main_v4 (F := Ideal) idx i = idx i := by
  rw [val_main_v4_apply, val_main_v1_apply, val_main_v0_apply, val_main_c_apply, slt_zero_of_lt16 _ (hq i), select_zero]

/-- The start index of result entry `y`, read back through the unit axis, is `y`. -/
private theorem idx_v5_take (y : S4096x4096.Idx) : idx_main_v5 (takeIdx y) = y := by
  funext a
  match a with
  | ⟨0, _⟩ => rfl
  | ⟨1, _⟩ => rfl

/-- The gathered array, entry `(o, i)`: the centroid that the code `q o i` names. -/
private theorem v6_eq [Facts] (idx : IVec SQ 32) (cen : FVec Ideal SC .f32) (hq : ∀ i, (idx i).toNat < 16)
    (hc : ∀ i, ((cen i).toReal : EReal) = cen i) (y : S4096x4096.Idx) :
    val_main_v6 (F := Ideal) idx cen y = ((cn cen (qn idx (y 0).val (y 1).val) : ℝ) : EReal) := by
  have hw : val_main_v5 (F := Ideal) idx (takeIdx y) = idx y := by
    rw [val_main_v5_apply, v4_eq idx hq, idx_v5_take]
  have hD : gather_S16_S4096x4096x1_S4096x4096_n_0_n_n_0_2_1
      = takeDims 16 4096 4096 Facts₀.gather_S16_S4096x4096x1_S4096x4096_n_0_n_n_0_2_1_wf := rfl
  unfold val_main_v6
  rw [hD, gather_take_apply (by norm_num)]
  unfold cn
  rw [hc]
  congr 1
  funext a
  match a with
  | ⟨0, _⟩ =>
    refine Fin.ext ?_
    show min (val_main_v5 (F := Ideal) idx (takeIdx y)).toInt.toNat (16 - 1) = qn idx (y 0).val (y 1).val % 16
    rw [hw, clamp_of_lt16 _ (hq y)]
    unfold qn
    rw [nq_self, Nat.mod_eq_of_lt (hq y)]

/-- The first product reads the rotation at `(k, n)`. -/
private theorem ridx7_eq (j : S4096x4096.Idx) (k : Fin 4096) : ridx_main_v7 j k = nq k.val (j 1).val := by
  funext a
  match a with
  | ⟨0, _⟩ => exact Fin.ext (Nat.mod_eq_of_lt k.isLt).symm
  | ⟨1, _⟩ => exact Fin.ext (Nat.mod_eq_of_lt (j 1).isLt).symm

/-- The row norm is read at the row `o`. -/
private theorem idx89_eq (j : S4096x4096.Idx) : idx_main_v8 (idx_main_v9 j) = nv (j 0).val := by
  funext a
  match a with
  | ⟨0, _⟩ => exact Fin.ext (Nat.mod_eq_of_lt (j 0).isLt).symm

/-- The contraction of the gathered centroids with the rotation, entry `(o, n)`, as a real sum. -/
private theorem v7_eq [Facts] (idx : IVec SQ 32) (cen : FVec Ideal SC .f32) (Pi : FVec Ideal SQ .f32)
    (hq : ∀ i, (idx i).toNat < 16) (hc : ∀ i, ((cen i).toReal : EReal) = cen i)
    (hP : ∀ i, ((Pi i).toReal : EReal) = Pi i) (j : S4096x4096.Idx) :
    val_main_v7 (F := Ideal) idx cen Pi j
      = ((∑ k ∈ Finset.range 4096, cn cen (qn idx (j 0).val k) * Pn Pi k (j 1).val : ℝ) : EReal) := by
  rw [val_main_v7_apply, ← coe_sum,
    ← sum_fin_range 4096 (fun k => ((cn cen (qn idx (j 0).val k) * Pn Pi k (j 1).val : ℝ) : EReal))]
  refine Finset.sum_congr rfl fun k _ => ?_
  rw [v6_eq idx cen hq hc, ridx7_eq, EReal.coe_mul]
  unfold Pn
  rw [hP]

/-- THE WEIGHT of the reference, entry `(o, n)`, is the specified weight. -/
private theorem ref_weight [Facts] (idx : IVec SQ 32) (cen : FVec Ideal SC .f32) (Pi : FVec Ideal SQ .f32)
    (rn : FVec Ideal SV .f32) (hq : ∀ i, (idx i).toNat < 16) (hc : ∀ i, ((cen i).toReal : EReal) = cen i)
    (hP : ∀ i, ((Pi i).toReal : EReal) = Pi i) (hr : ∀ i, ((rn i).toReal : EReal) = rn i) (j : S4096x4096.Idx) :
    val_main_v10 (F := Ideal) idx cen Pi rn j = ((Wspec idx cen Pi rn (j 0).val (j 1).val : ℝ) : EReal) := by
  rw [val_main_v10_apply, v7_eq idx cen Pi hq hc hP, val_main_v9_apply, val_main_v8_apply, idx89_eq, Ideal.mulf_def]
  unfold Wspec Wn vn
  rw [EReal.coe_mul, hr]

/-- The second product reads the input at `(b, s, k)`. -/
private theorem lidx11_eq (j : S4x2048x4096.Idx) (k : Fin 4096) :
    lidx_main_v11 j k = nx3 (j 0).val (j 1).val k.val := by
  funext a
  match a with
  | ⟨0, _⟩ => exact Fin.ext (Nat.mod_eq_of_lt (j 0).isLt).symm
  | ⟨1, _⟩ => exact Fin.ext (Nat.mod_eq_of_lt (j 1).isLt).symm
  | ⟨2, _⟩ => exact Fin.ext (Nat.mod_eq_of_lt k.isLt).symm

/-- The offset is read at the output column `o`. -/
private theorem idx1213_eq (j : S4x2048x4096.Idx) : idx_main_v12 (idx_main_v13 j) = nv (j 2).val := by
  funext a
  match a with
  | ⟨0, _⟩ => exact Fin.ext (Nat.mod_eq_of_lt (j 2).isLt).symm

/-- The contraction of the input with the weight, entry `(b, s, o)`, as a real sum. -/
private theorem v11_eq [Facts] (x : FVec Ideal SX .f32) (idx : IVec SQ 32) (cen : FVec Ideal SC .f32)
    (Pi : FVec Ideal SQ .f32) (rn : FVec Ideal SV .f32) (hx : ∀ i, ((x i).toReal : EReal) = x i)
    (hq : ∀ i, (idx i).toNat < 16) (hc : ∀ i, ((cen i).toReal : EReal) = cen i)
    (hP : ∀ i, ((Pi i).toReal : EReal) = Pi i) (hr : ∀ i, ((rn i).toReal : EReal) = rn i)
    (j : S4x2048x4096.Idx) :
    val_main_v11 (F := Ideal) x idx cen Pi rn j
      = ((∑ k ∈ Finset.range 4096, x3n x (j 0).val (j 1).val k * Wspec idx cen Pi rn (j 2).val k : ℝ) : EReal) := by
  rw [val_main_v11_apply, ← coe_sum,
    ← sum_fin_range 4096 (fun k => ((x3n x (j 0).val (j 1).val k * Wspec idx cen Pi rn (j 2).val k : ℝ) : EReal))]
  refine Finset.sum_congr rfl fun k _ => ?_
  rw [ref_weight idx cen Pi rn hq hc hP hr, lidx11_eq, EReal.coe_mul]
  unfold x3n
  rw [hx]

/-- The reference's last stage, as a function of the arguments, is the specified result wherever the arguments lie in the
    domain. -/
theorem ref_eq [Cert.ReferenceIdeal.Facts] (x : FVec Ideal SX .f32) (idx : IVec SQ 32) (cen : FVec Ideal SC .f32)
    (Pi : FVec Ideal SQ .f32) (rn bias : FVec Ideal SV .f32) (hd : Dom x idx cen Pi rn bias) :
    Cert.ReferenceIdeal.Read.val_main_v14 (F := Ideal) x idx cen Pi rn bias = Out x idx cen Pi rn bias := by
  funext j
  rw [val_main_v14_apply, v11_eq x idx cen Pi rn hd.x_real hd.idx_lt hd.cen_real hd.Pi_real hd.rn_real,
    val_main_v13_apply, val_main_v12_apply, idx1213_eq, Ideal.addf_def]
  unfold Out vn
  rw [EReal.coe_add, hd.bias_real]

end Cert.Bridge

end
-- ==== Proof.PreFacts.lean ====
/-
  The precondition, decoded: where the printed predicate is all ones, every float entry of the arguments is a real
  number and every code is one of 0 … 15.

  The predicate is a conjunction of six reductions by "and" over whole arrays.  Five of them test |v| < +∞ at each
  entry of a float array; in the extended reals |v| = max v (-v), and +∞ is the top element, so the test fails
  exactly at the two infinite elements and holds at every real.  The sixth tests 0 ≤ q and q < 16 at each code,
  both read signed; a 32-bit word whose signed value is non-negative has its signed value equal to its unsigned
  one, so the unsigned value is below sixteen as well.
-/
import proofs.«415316_j46162308497811_3_alg».proof.Pre_finite_inputs
import proofs.«415316_j46162308497811_3_alg».proof.Proof.Gen.Pre_finite_inputs
import proofs.«415316_j46162308497811_3_alg».proof.Proof.Spec
import Idealize.ShloMosaic.Lib.ReduceAll
import Idealize.ShloMosaic.Lib.StableHlo.Predicate

noncomputable section

open Idealize.ShloMosaic Idealize.ShloMosaic.ValueIdx

namespace Cert.Bridge

/-- The rank-zero shape has one index. -/
instance : Subsingleton Cert.Pre_finite_inputs.S_.Idx := ⟨fun a b => funext fun d => d.elim0⟩

/-- The bit pattern of +∞ denotes the top element. -/
private theorem inf_bits : Ideal.ofBits .f32 0x7F800000#32 = (⊤ : EReal) := by
  simp [Ideal.ofBits, Ideal.ieee]

/-- An extended real whose absolute value lies strictly below the top element is a real number. -/
private theorem real_of_abs_lt (v : EReal) (h : max v (-v) < ⊤) : ((v.toReal : ℝ) : EReal) = v := by
  induction v using EReal.rec with
  | bot => simp at h
  | coe r => rfl
  | top => simp at h

/-- One entry: the printed test "|v| < +∞" that came out 1 says the entry is real. -/
private theorem elem_real (v : Ideal .f32)
    (h : FloatOps.cmpf (F := Ideal) .olt (FloatOps.hostAbsf v) (FloatOps.ofBits .f32 0x7F800000#32) = 1#1) :
    ((v.toReal : ℝ) : EReal) = v := by
  have h' : Ideal.cmp .olt (max v (-v)) (Ideal.ofBits .f32 0x7F800000#32) = 1#1 := h
  rw [inf_bits] at h'
  simp only [Ideal.cmp] at h'
  exact real_of_abs_lt v (of_decide_eq_true ((StableHlo.Predicate.ofBool_eq_one_iff _).1 h'))

/-- One array: the reduction by "and" of the entrywise test "|x| < +∞" that came out 1 says every entry is real. -/
private theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1) (j : Cert.Pre_finite_inputs.S_.Idx)
    (e : Host.reduce IntOp.andi
      (cmpf .olt (Host.absf x) (broadcastInDim s ![] hb (constant Cert.Pre_finite_inputs.S_ .f32 0x7F800000#32)))
      init hr hu j = 1#1) (i : s.Idx) : ((x i).toReal : EReal) = x i :=
  elem_real (x i) (Host.reduce_andi_all _ init hr hu j e i)

/-- A 32-bit word between 0 and 16 as a signed number is below 16 as an unsigned one. -/
private theorem toNat_lt_of_signed (a : BitVec 32) (h0 : (0#32 : BitVec 32).toInt ≤ a.toInt)
    (h1 : a.toInt < (16#32 : BitVec 32).toInt) : a.toNat < 16 := by
  have e0 : (0#32 : BitVec 32).toInt = 0 := by decide
  have e1 : (16#32 : BitVec 32).toInt = 16 := by decide
  rw [e0] at h0
  rw [e1] at h1
  have ha := a.isLt
  rw [BitVec.toInt_eq_toNat_cond] at h0 h1
  split at h0 <;> omega

/-- The code array: the reduction by "and" of the entrywise test "0 ≤ q and q < 16" that came out 1 says every code
    is below sixteen. -/
private theorem all_code {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (q : IVec s 32) (init : IVec Cert.Pre_finite_inputs.S_ 1) (j : Cert.Pre_finite_inputs.S_.Idx)
    (e : Host.reduce IntOp.andi
      (andi (cmpi .sge q (broadcastInDim s ![] hb (constantI Cert.Pre_finite_inputs.S_ 32 0#32)))
        (cmpi .slt q (broadcastInDim s ![] hb (constantI Cert.Pre_finite_inputs.S_ 32 16#32))))
      init hr hu j = 1#1) (i : s.Idx) : (q i).toNat < 16 := by
  obtain ⟨h0, h1⟩ := IntOp.andi_eq_one.1 (Host.reduce_andi_all _ init hr hu j e i)
  exact toNat_lt_of_signed (q i) (IntOp.cmpi_sge.1 h0) (IntOp.cmpi_slt.1 h1)

/-- Where the printed precondition holds of the arguments, they lie in the domain the bridge is proved on. -/
theorem dom_of_pre [Cert.Pre_finite_inputs.Facts] (x : FVec Ideal SX .f32) (idx : IVec SQ 32) (cen : FVec Ideal SC .f32)
    (Pi : FVec Ideal SQ .f32) (rn bias : FVec Ideal SV .f32)
    (h : Cert.Pre_finite_inputs.fn (F := Ideal) x idx cen Pi rn bias = fun _ => 1#1) :
    Dom x idx cen Pi rn bias := by
  -- the predicate at its one index: a five-fold conjunction nested to the left, one reduction per conjunct
  have h0 := congrFun h ix0
  dsimp only [Cert.Pre_finite_inputs.fn, Cert.Pre_finite_inputs.fn_part1] at h0
  obtain ⟨h4, hq⟩ := IntOp.andi_eq_one.1 h0
  obtain ⟨h3, hbias⟩ := IntOp.andi_eq_one.1 h4
  obtain ⟨h2, hrn⟩ := IntOp.andi_eq_one.1 h3
  obtain ⟨h1, hPi⟩ := IntOp.andi_eq_one.1 h2
  obtain ⟨hx, hcen⟩ := IntOp.andi_eq_one.1 h1
  exact ⟨all_real _ _ _ x _ ix0 hx, all_real _ _ _ cen _ ix0 hcen, all_real _ _ _ Pi _ ix0 hPi,
    all_real _ _ _ rn _ ix0 hrn, all_real _ _ _ bias _ ix0 hbias, all_code _ _ _ idx _ ix0 hq⟩

end Cert.Bridge

end
-- ==== Proof.lean ====
/-
  The claim: a 4-bit codebook-quantised linear layer computed by two tiled kernels — the first rebuilds the weight
  `W = (c[q] · P) ⊙ r` from codes `q`, centroids `c`, a rotation `P` and row norms `r`; the second computes
  `x · Wᵀ + β` — against the same layer written with whole-array operations.

  Each kernel multiplies in three passes over a two-term split `v = hi + lo` of its operands, `hi` the operand at a
  narrower float format and `lo = v − hi`.  Over the extended reals a change of format is the identity, so `hi = v`
  and `lo = v − v`, which is `0` exactly when `v` is a real number: the precondition (every float entry finite) makes
  the two correction passes vanish, and what is left is the plain product, summed block by block over the contracted
  axis — the same finite sum of reals in another grouping.  The kernel picks a centroid by the low four bits of the code
  and the reference by a clamped gather, which agree where the code is one of 0 … 15: the precondition's second part.

  The run of the kernel program with its result buffer named is Proof/RunValue.lean; the two kernels' result arrays are
  Proof/R0Value.lean and Proof/R1Value.lean over one grid point read at an index (Proof/R0Body.lean, Proof/R1Body.lean); the
  host operations between them Proof/KHost.lean; their composition Proof/KernelValue.lean; the reference read at an index
  Proof/RefValue.lean; the precondition decoded Proof/PreFacts.lean; the common specification Proof/Spec.lean.
-/
import proofs.«415316_j46162308497811_3_alg».proof.Defs
import proofs.«415316_j46162308497811_3_alg».proof.Proof.Gen.Kernel
import proofs.«415316_j46162308497811_3_alg».proof.Proof.Gen.Kernel.Skeleton
import proofs.«415316_j46162308497811_3_alg».proof.Proof.Gen.Kernel.Launch
import proofs.«415316_j46162308497811_3_alg».proof.Proof.Gen.Kernel.Points
import proofs.«415316_j46162308497811_3_alg».proof.Proof.Gen.Kernel.Frame
import proofs.«415316_j46162308497811_3_alg».proof.Proof.Gen.KernelIdeal
import proofs.«415316_j46162308497811_3_alg».proof.Proof.Gen.KernelIdeal.Skeleton
import proofs.«415316_j46162308497811_3_alg».proof.Proof.Gen.KernelIdeal.Launch
import proofs.«415316_j46162308497811_3_alg».proof.Proof.Gen.KernelIdeal.Points
import proofs.«415316_j46162308497811_3_alg».proof.Proof.Gen.KernelIdeal.Frame
import proofs.«415316_j46162308497811_3_alg».proof.Proof.Gen.ReferenceIdeal
import proofs.«415316_j46162308497811_3_alg».proof.Proof.Gen.ReferenceIdeal.Run
import proofs.«415316_j46162308497811_3_alg».proof.Proof.Gen.ReferenceIdeal.Read
import proofs.«415316_j46162308497811_3_alg».proof.Proof.Gen.Pre_finite_inputs
import proofs.«415316_j46162308497811_3_alg».proof.Proof.RunValue
import proofs.«415316_j46162308497811_3_alg».proof.Proof.KernelValue
import proofs.«415316_j46162308497811_3_alg».proof.Proof.RefValue
import proofs.«415316_j46162308497811_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: widening back what was just narrowed is the identity on extended reals. -/
theorem preserves : Cert.preserves_Kernel_KernelIdeal :=
  IdealRules.truncf_extf.statement Cert.KernelIdeal.S1024x256 .f32 .bf16

/-- Both programs end with the specified result: the kernel program by the two kernels' result arrays composed through
    the host operations, the reference by its stages read at an index, both on the domain the precondition gives. -/
theorem algebraic : Cert.algebraic_KernelIdeal_ReferenceIdeal := by
  intro m ρ m' ρ' hpre hagree
  have hd : ∀ c : Dev Cert.KernelIdeal.nD, Cert.Bridge.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    fun c => Cert.Bridge.dom_of_pre _ _ _ _ _ _ (hpre c)
  refine ⟨fun c => Cert.Bridge.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨((h c).1).trans (Cert.KernelIdeal.KValue.result m ρ c (hd c)), (h c).2⟩)
      (Cert.KernelIdeal.Gen.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v14_eq, (hagree c).1, (hagree c).2.1, (hagree c).2.2.1,
      (hagree c).2.2.2.1, (hagree c).2.2.2.2.1, (hagree c).2.2.2.2.2]
    exact Cert.Bridge.ref_eq _ _ _ _ _ _ (hd c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
